-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x8192 : Shape := ⟨3, ![4, 1, 8192]⟩
abbrev S1x1024x3 : Shape := ⟨3, ![1, 1024, 3]⟩
abbrev S1x1x1024 : Shape := ⟨3, ![1, 1, 1024]⟩
abbrev S1x1x8192 : Shape := ⟨3, ![1, 1, 8192]⟩
abbrev S1024x3 : Shape := ⟨2, ![1024, 3]⟩
abbrev S1024 : Shape := ⟨1, ![1024]⟩
abbrev S1024x1 : Shape := ⟨2, ![1024, 1]⟩
abbrev S1x1024 : Shape := ⟨2, ![1, 1024]⟩
abbrev S3x1024 : Shape := ⟨2, ![3, 1024]⟩
abbrev S1024x1024 : Shape := ⟨2, ![1024, 1024]⟩
abbrev S4x8192 : Shape := ⟨2, ![4, 8192]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x8192, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1024, .f32⟩
  | .local _ .vmem, ⟨5, _⟩ => ⟨S1x1x1024, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v35 : BitVec 32 := Scalar.muli arg2 c1024_i32
  v35
def k0_off1 (i : grid0.Coords) : Fin 3 → Nat :=
  let c0_20 : Index := 0#32
  let c0_21 : Index := 0#32
  let arg2 : BitVec 32 := BitVec.ofNat 32 (i 2).val
  let c1024_i32 : BitVec 32 := 1024#32
  let v35 : BitVec 32 := Scalar.muli arg2 c1024_i32
  let v36 : BitVec 32 := v35
  let v37 : Index := Scalar.indexCast v36
  ![0, 0, v37.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  reduces_S1024x1024_S1024 : S1024x1024.Reduces [1] S1024
  shapeCasts_S1024_S1x1x1024 : S1024.ShapeCasts S1x1x1024
  inb_S1x1x8192_S1x1x8192_0_0_0 : ∀ a, (![0, 0, 0] : Fin 3 → Nat) a + S1x1x8192.size a ≤ S1x1x8192.size a
  h_S1x1x8192 : 0 < S1x1x8192.numel
  reduces_S1024x1024_S1024_2 : S1024x1024.Reduces [0] S1024
  shapeCasts_S4x1x8192_S4x8192 : S4x1x8192.ShapeCasts S4x8192
  reducesTo_S4x8192_S_d0_1 : S4x8192.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1x1024.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S4x1x8192.size a
  hwx0_2 : ∀ i : grid0.Coords, EltTy.bits .f32 = 32 ∨ (Rect.block (s := S4x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KB.Cases.lean ====
/- The grid of the distance kernel is (batch, query tile, reference tile), 4 x 8 x 8, walked in row-major order:
   point t is (t / 64, (t / 8) % 8, t % 8). The body's two conditionals test the reference tile (first of a sweep:
   the query tile's running minima are reset) and both tiles (first point of a batch: the batch's running column
   minima are reset). This module decides those tests over the grid and names the staging memrefs of a point. -/
import proofs.«125048_j82746839925382_1_alg».proof.Proof.Gen.Kernel.Frame
import proofs.«125048_j82746839925382_1_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reference tile is the first of its sweep. -/
abbrev condSweep (i : grid0.Coords) : Prop :=
  (Scalar.cmpi .ne (Scalar.extui (Scalar.cmpi .eq (BitVec.ofNat 32 (i 2).val) 0#32)) 0#32) = 1#1
/-- That is the case at the points divisible by 8. -/
theorem hcondSweep : ∀ t : Fin cfg0.N, condSweep (grid0.coords t) ↔ t.val % 8 = 0 :=
  (by decide +kernel : ∀ t : Fin grid0.N, condSweep (grid0.coords t) ↔ t.val % 8 = 0)

/-- The point is the first of its batch: query tile and reference tile both zero. -/
abbrev condBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the case at the points divisible by 64. -/
theorem hcondBatch : ∀ t : Fin cfg0.N, condBatch (grid0.coords t) ↔ t.val % 64 = 0 :=
  (by decide +kernel : ∀ t : Fin grid0.N, condBatch (grid0.coords t) ↔ t.val % 64 = 0)

/-- Each window's current staging memref at point `t`, as the pipeline passes it to the body, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.Kernel.Hand

end
-- ==== Proof.KB.RunA.lean ====
/- The body at the first point of a batch: both running minima are reset to plus infinity before they are
   updated. Whatever the two output buffers held is read once and never used. -/
import proofs.«125048_j82746839925382_1_alg».proof.Proof.KB.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1` and anything in the outputs, hands the inputs back as they were
    and each output's memref with those stores written. -/
noncomputable def kernelRun_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : condSweep i) (hc1 : condBatch i)
    (x0 : Vec F S1x1024x3 .f32) (x1 : Vec F S1x1024x3 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.Kernel.Hand

end
-- ==== Proof.KB.RunB.lean ====
/- The body at a point that is neither the first of a sweep nor the first of a batch: no buffer is reset.
   The query tile's running minima (1024 of them) are replaced by their minimum with the row minima of the
   tile of clamped squared distances; of the batch's running column minima (8192) the slice of the current
   reference tile is replaced by its minimum with the tile's column minima, the rest is kept. -/
import proofs.«125048_j82746839925382_1_alg».proof.Proof.KB.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1` and the running minima `xo2`, `xo3`, hands the inputs back as they
    were and each output's memref with those stores written over what it held. -/
noncomputable def kernelRun_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬condSweep i) (hc1 : ¬condBatch i)
    (x0 : Vec F S1x1024x3 .f32) (x1 : Vec F S1x1024x3 .f32) (xo2 : Vec F S1x1x1024 .f32) (xo3 : Vec F S1x1x8192 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.Kernel.Hand

end
-- ==== Proof.KB.RunC.lean ====
/- The body at the first point of a sweep that is not the first of its batch: the query tile's running minima
   are reset to plus infinity before they are updated; the batch's running column minima are carried, and the
   slice of the current reference tile is updated. -/
import proofs.«125048_j82746839925382_1_alg».proof.Proof.KB.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1`, anything in the first output and the running column minima
    `xo3` in the second, hands the inputs back as they were, the first output's memref with its stores written and
    the second's with its stores written over what it held. -/
noncomputable def kernelRun_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : condSweep i) (hc1 : ¬condBatch i)
    (x0 : Vec F S1x1024x3 .f32) (x1 : Vec F S1x1024x3 .f32) (xo3 : Vec F S1x1x8192 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.Kernel.Hand

end
-- ==== Proof.LibOver.lean ====
/- Contents with a list of stores written over them, as a function of the contents and the stores alone.

   A list of stores (newest first) through unit-stride rectangles, written into a buffer read through any view,
   leaves at each index the payload of the newest store whose rectangle holds the index, and the old contents
   where no store reaches. `View.over X L` is that function of the old contents `X` and the list `L`; it does not
   mention the view or the buffer, so what a body leaves in a staging buffer it only partly overwrites can be
   stated once and read back index by index. -/
import Idealize.ShloMosaic.Lib.Writes
import Idealize.ShloMosaic.Lib.WritesUnit
import Idealize.ShloMosaic.Lib.Pipeline.Frame

namespace Idealize.ShloMosaic

namespace View

variable {Val : EltTy → Type} {s : Shape} {e : EltTy}

/-- The contents `X` with the stores `L` (newest first) written over them: under the newest store's rectangle its
    payload, elsewhere what the earlier stores left. -/
def over (X : s.Idx → Val e) : List (Piece Val s e) → s.Idx → Val e
  | [] => X
  | p :: L => p.1.overlay (over X L) p.2

@[simp] theorem over_nil (X : s.Idx → Val e) : over X ([] : List (Piece Val s e)) = X := rfl

theorem over_cons (X : s.Idx → Val e) (p : Piece Val s e) (L : List (Piece Val s e)) :
    over X (p :: L) = p.1.overlay (over X L) p.2 := rfl

/-- Under the newest store, its payload. -/
theorem over_cons_emb (X : s.Idx → Val e) (r : Rect s) (w : r.shape.Idx → Val e) (L : List (Piece Val s e)) (x : r.shape.Idx) :
    over X (⟨r, w⟩ :: L) (r.emb x) = w x := by
  rw [over_cons]; exact r.overlay_emb _ _ x

/-- Off the newest store, what the earlier ones left. -/
theorem over_cons_of_not_mem (X : s.Idx → Val e) (p : Piece Val s e) (L : List (Piece Val s e)) {y : s.Idx}
    (h : y ∉ p.1.set) : over X (p :: L) y = over X L y := by
  rw [over_cons]; exact p.1.overlay_of_not_mem _ _ h

variable {sig : RefSig} {κ : Kind} {sp : Space}

/-- What any view reads after the stores `L` is what it read before with `L` written over. -/
theorem read_writes_eq_over (v : View sig κ sp s e) (f : v.ty.Contents Val) :
    ∀ L : List (Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [read_writes_cons_emb, over_cons_emb]
    · have hy' : y ∉ Finset.univ.map p.1.emb := by rwa [Rect.map_emb_univ]
      rw [writes_cons, read_slice_write_of_not_mem p.1 _ _ _ hy', over_cons_of_not_mem _ p L hy]
      exact congrFun (read_writes_eq_over v f L) y

/-- For a whole memref holding `X`: after the stores `L` it reads `X` with `L` written over. -/
theorem _root_.Idealize.ShloMosaic.Memref.IsWhole.read_writes_unread {m : Memref sig κ sp s e} (h : m.IsWhole)
    (X : s.Idx → Val e) (L : List (Piece Val s e)) :
    m.view.read Val (m.view.writes Val (h.unread X) L) = over X L := by
  rw [read_writes_eq_over, h.read_unread]

/-- An index at position `x` of the newest store's unit-stride rectangle reads that store's payload at `x`. -/
theorem over_cons_unit_of_mem (X : s.Idx → Val e) {off off' size : Fin s.rank → ℕ} (inb : ∀ a, off a + size a ≤ s.size a)
    (w : (Rect.unit off size inb).shape.Idx → Val e) (L : List (Piece Val s e)) (y : s.Idx)
    (x : (Rect.unit off size inb).shape.Idx) (heq : off = off') (hx : ∀ a, (y a).val = off' a + (x a).val) :
    over X ((⟨Rect.unit off size inb, w⟩ : Piece Val s e) :: L) y = w x := by
  subst heq
  have hy : (Rect.unit off size inb).emb x = y := funext fun a => Fin.ext (by
    show off a + 1 * (x a).val = (y a).val
    rw [hx a, Nat.one_mul])
  exact (congrArg (over X ((⟨Rect.unit off size inb, w⟩ : Piece Val s e) :: L)) hy.symm).trans
    (over_cons_emb X (Rect.unit off size inb) w L x)

/-- An index outside the newest store's unit-stride rectangle on axis `a` reads what the earlier stores left. -/
theorem over_cons_unit_of_not_mem (X : s.Idx → Val e) {off off' size : Fin s.rank → ℕ} (inb : ∀ a, off a + size a ≤ s.size a)
    (w : (Rect.unit off size inb).shape.Idx → Val e) (L : List (Piece Val s e)) (y : s.Idx) (heq : off = off')
    (a : Fin s.rank) (ha : (y a).val < off' a ∨ off' a + size a ≤ (y a).val) :
    over X ((⟨Rect.unit off size inb, w⟩ : Piece Val s e) :: L) y = over X L y := by
  subst heq
  refine over_cons_of_not_mem X _ L ?_
  rw [Rect.mem_set_unit]
  intro hall
  have := hall a
  omega

end View

end Idealize.ShloMosaic
-- ==== Proof.KB.Outs.lean ====
/- What the two output staging buffers hold after each grid point, and the pipeline's proof data.

   A point of a batch's first sweep start resets both running minima; the first point of any other sweep resets
   the query tile's minima and carries the batch's column minima; every other point carries both. What a point
   leaves is stated from the stores its run makes: where they fill the block, read back over nothing; where they
   reach only a slice, written over what the point before left. -/
import proofs.«125048_j82746839925382_1_alg».proof.Proof.KB.RunA
import proofs.«125048_j82746839925382_1_alg».proof.Proof.KB.RunB
import proofs.«125048_j82746839925382_1_alg».proof.Proof.KB.RunC
import proofs.«125048_j82746839925382_1_alg».proof.Proof.LibOver

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO2 : View sig .tc .vmem S1x1x1024 .f32 := (Memref.whole cc0_stg2_0 : Memref sig .tc .vmem S1x1x1024 .f32).view
abbrev VO3 : View sig .tc .vmem S1x1x8192 .f32 := (Memref.whole cc0_stg3_0 : Memref sig .tc .vmem S1x1x8192 .f32).view

section Cases
variable (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole)
  (x0 : Vec F S1x1024x3 .f32) (x1 : Vec F S1x1024x3 .f32)

/-- At a batch's first point the stores into the query tile's minima fill the block. -/
theorem cover_A_2 (hc0 : condSweep i) (hc1 : condBatch i) (y : S1x1x1024.Idx) :
    ∃ pc ∈ (kernelRun_A c i arg3 harg3 arg4 harg4 arg5 harg5 arg6 harg6 hc0 hc1 x0 x1).1, y ∈ pc.1.set :=
  View.cover_of_wholeMem (kernelRun_A c i arg3 harg3 arg4 harg4 arg5 harg5 arg6 harg6 hc0 hc1 x0 x1).1 (by sl_whole_mem) y
/-- What they leave. -/
def out_A_2 (hc0 : condSweep i) (hc1 : condBatch i) : Vec F S1x1x1024 .f32 :=
  VO2.read (Elt F) (VO2.writes (Elt F) VO2.junk (kernelRun_A c i arg3 harg3 arg4 harg4 arg5 harg5 arg6 harg6 hc0 hc1 x0 x1).1)
/-- At a batch's first point the stores into the column minima fill the block (the reset does). -/
theorem cover_A_3 (hc0 : condSweep i) (hc1 : condBatch i) (y : S1x1x8192.Idx) :
    ∃ pc ∈ (kernelRun_A c i arg3 harg3 arg4 harg4 arg5 harg5 arg6 harg6 hc0 hc1 x0 x1).2.1, y ∈ pc.1.set :=
  View.cover_of_wholeMem (kernelRun_A c i arg3 harg3 arg4 harg4 arg5 harg5 arg6 harg6 hc0 hc1 x0 x1).2.1 (by sl_whole_mem) y
/-- What they leave. -/
def out_A_3 (hc0 : condSweep i) (hc1 : condBatch i) : Vec F S1x1x8192 .f32 :=
  VO3.read (Elt F) (VO3.writes (Elt F) VO3.junk (kernelRun_A c i arg3 harg3 arg4 harg4 arg5 harg5 arg6 harg6 hc0 hc1 x0 x1).2.1)

/-- At a later sweep's first point the stores into the query tile's minima fill the block. -/
theorem cover_C_2 (hc0 : condSweep i) (hc1 : ¬condBatch i) (xo3 : Vec F S1x1x8192 .f32) (y : S1x1x1024.Idx) :
    ∃ pc ∈ (kernelRun_C c i arg3 harg3 arg4 harg4 arg5 harg5 arg6 harg6 hc0 hc1 x0 x1 xo3).1, y ∈ pc.1.set :=
  View.cover_of_wholeMem (kernelRun_C c i arg3 harg3 arg4 harg4 arg5 harg5 arg6 harg6 hc0 hc1 x0 x1 xo3).1 (by sl_whole_mem) y
/-- What they leave. -/
def out_C_2 (hc0 : condSweep i) (hc1 : ¬condBatch i) (xo3 : Vec F S1x1x8192 .f32) : Vec F S1x1x1024 .f32 :=
  VO2.read (Elt F) (VO2.writes (Elt F) VO2.junk (kernelRun_C c i arg3 harg3 arg4 harg4 arg5 harg5 arg6 harg6 hc0 hc1 x0 x1 xo3).1)
/-- The column minima there: the carried ones `xo3` with the point's store written over. -/
def out_C_3 (hc0 : condSweep i) (hc1 : ¬condBatch i) (xo3 : Vec F S1x1x8192 .f32) : Vec F S1x1x8192 .f32 :=
  View.over xo3 (kernelRun_C c i arg3 harg3 arg4 harg4 arg5 harg5 arg6 harg6 hc0 hc1 x0 x1 xo3).2.1

/-- Inside a sweep: the carried minima `xo2` with the point's store written over, -/
def out_B_2 (hc0 : ¬condSweep i) (hc1 : ¬condBatch i) (xo2 : Vec F S1x1x1024 .f32) (xo3 : Vec F S1x1x8192 .f32) : Vec F S1x1x1024 .f32 :=
  View.over xo2 (kernelRun_B c i arg3 harg3 arg4 harg4 arg5 harg5 arg6 harg6 hc0 hc1 x0 x1 xo2 xo3).1
/-- and the carried column minima `xo3` likewise. -/
def out_B_3 (hc0 : ¬condSweep i) (hc1 : ¬condBatch i) (xo2 : Vec F S1x1x1024 .f32) (xo3 : Vec F S1x1x8192 .f32) : Vec F S1x1x8192 .f32 :=
  View.over xo3 (kernelRun_B c i arg3 harg3 arg4 harg4 arg5 harg5 arg6 harg6 hc0 hc1 x0 x1 xo2 xo3).2.1

end Cases

/-! ## Point by point -/

theorem not_mod64_of_not_mod8 {k : ℕ} (h0 : ¬k % 8 = 0) : ¬k % 64 = 0 := fun h => h0 (by omega)
theorem not_batch_of_mod {t : Fin cfg0.N} (h1 : ¬t.val % 64 = 0) : ¬condBatch (grid0.coords t) := fun h => h1 ((hcondBatch t).mp h)
theorem not_sweep_of_mod {t : Fin cfg0.N} (h0 : ¬t.val % 8 = 0) : ¬condSweep (grid0.coords t) := fun h => h0 ((hcondSweep t).mp h)

/-- What the two output staging buffers hold after the body at position `n` of the grid's walk: the case the
    position is in, run on the point's input blocks, reading what position `n - 1` left where the case carries it. -/
def outsAt (c : Dev nD) : (n : ℕ) → n < cfg0.N → Vec F S1x1x1024 .f32 × Vec F S1x1x8192 .f32
  | 0, hn =>
    (out_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcondSweep ⟨0, hn⟩).mpr (Nat.zero_mod _)) ((hcondBatch ⟨0, hn⟩).mpr (Nat.zero_mod _)),
     out_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcondSweep ⟨0, hn⟩).mpr (Nat.zero_mod _)) ((hcondBatch ⟨0, hn⟩).mpr (Nat.zero_mod _)))
  | n + 1, hn =>
    if h0 : (n + 1) % 8 = 0 then
      if h1 : (n + 1) % 64 = 0 then
        (out_A_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) ((hcondBatch ⟨n + 1, hn⟩).mpr h1),
         out_A_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) ((hcondBatch ⟨n + 1, hn⟩).mpr h1))
      else
        (out_C_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) (not_batch_of_mod (t := ⟨n + 1, hn⟩) h1) (outsAt c n (Nat.lt_of_succ_lt hn)).2,
         out_C_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) (not_batch_of_mod (t := ⟨n + 1, hn⟩) h1) (outsAt c n (Nat.lt_of_succ_lt hn)).2)
    else
      (out_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (not_sweep_of_mod (t := ⟨n + 1, hn⟩) h0) (not_batch_of_mod (t := ⟨n + 1, hn⟩) (not_mod64_of_not_mod8 h0)) (outsAt c n (Nat.lt_of_succ_lt hn)).1 (outsAt c n (Nat.lt_of_succ_lt hn)).2,
       out_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (not_sweep_of_mod (t := ⟨n + 1, hn⟩) h0) (not_batch_of_mod (t := ⟨n + 1, hn⟩) (not_mod64_of_not_mod8 h0)) (outsAt c n (Nat.lt_of_succ_lt hn)).1 (outsAt c n (Nat.lt_of_succ_lt hn)).2)

/-- The predecessor position, for a statement about `outsAt` at `t - 1`. -/
abbrev predLt (t : Fin cfg0.N) : t.val - 1 < cfg0.N := Nat.lt_of_le_of_lt (Nat.sub_le _ _) t.isLt

/-- `outsAt` at a batch's first point. -/
theorem outsAt_A (c : Dev nD) (t : Fin cfg0.N) (h0 : t.val % 8 = 0) (h1 : t.val % 64 = 0) :
    outsAt m c t.val t.isLt =
      (out_A_2 c (grid0.coords t) (ms0 t) (hs0 t) (ms1 t) (hs1 t) (ms2 t) (hs2 t) (ms3 t) (hs3 t) (iblk m c 0 t) (iblk m c 1 t) ((hcondSweep t).mpr h0) ((hcondBatch t).mpr h1),
       out_A_3 c (grid0.coords t) (ms0 t) (hs0 t) (ms1 t) (hs1 t) (ms2 t) (hs2 t) (ms3 t) (hs3 t) (iblk m c 0 t) (iblk m c 1 t) ((hcondSweep t).mpr h0) ((hcondBatch t).mpr h1)) := by
  obtain ⟨n, hn⟩ := t
  cases n with
  | zero => exact rfl
  | succ n => exact (dif_pos h0).trans ((dif_pos h1).trans rfl)

/-- `outsAt` at a later sweep's first point: over the column minima the point before left. -/
theorem outsAt_C (c : Dev nD) (t : Fin cfg0.N) (h0 : t.val % 8 = 0) (h1 : ¬t.val % 64 = 0) :
    outsAt m c t.val t.isLt =
      (out_C_2 c (grid0.coords t) (ms0 t) (hs0 t) (ms1 t) (hs1 t) (ms2 t) (hs2 t) (ms3 t) (hs3 t) (iblk m c 0 t) (iblk m c 1 t) ((hcondSweep t).mpr h0) (not_batch_of_mod h1) (outsAt m c (t.val - 1) (predLt t)).2,
       out_C_3 c (grid0.coords t) (ms0 t) (hs0 t) (ms1 t) (hs1 t) (ms2 t) (hs2 t) (ms3 t) (hs3 t) (iblk m c 0 t) (iblk m c 1 t) ((hcondSweep t).mpr h0) (not_batch_of_mod h1) (outsAt m c (t.val - 1) (predLt t)).2) := by
  obtain ⟨n, hn⟩ := t
  cases n with
  | zero => exact absurd (Nat.zero_mod _) h1
  | succ n => exact (dif_pos h0).trans ((dif_neg h1).trans rfl)

/-- `outsAt` inside a sweep: over both minima the point before left. -/
theorem outsAt_B (c : Dev nD) (t : Fin cfg0.N) (h0 : ¬t.val % 8 = 0) (h1 : ¬t.val % 64 = 0) :
    outsAt m c t.val t.isLt =
      (out_B_2 c (grid0.coords t) (ms0 t) (hs0 t) (ms1 t) (hs1 t) (ms2 t) (hs2 t) (ms3 t) (hs3 t) (iblk m c 0 t) (iblk m c 1 t) (not_sweep_of_mod h0) (not_batch_of_mod h1) (outsAt m c (t.val - 1) (predLt t)).1 (outsAt m c (t.val - 1) (predLt t)).2,
       out_B_3 c (grid0.coords t) (ms0 t) (hs0 t) (ms1 t) (hs1 t) (ms2 t) (hs2 t) (ms3 t) (hs3 t) (iblk m c 0 t) (iblk m c 1 t) (not_sweep_of_mod h0) (not_batch_of_mod h1) (outsAt m c (t.val - 1) (predLt t)).1 (outsAt m c (t.val - 1) (predLt t)).2) := by
  obtain ⟨n, hn⟩ := t
  cases n with
  | zero => exact absurd (Nat.zero_mod _) h0
  | succ n => exact (dif_neg h0).trans rfl

/-! ## The pipeline's proof data -/

/-- The proof data of the one pipeline on core `c`: the arrays as the region finds them; after the body at point
    `t` each input's buffer at its block and the outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

end Cert.Kernel.Hand

end
-- ==== Proof.KB.Frame.lean ====
/- The body obligation of the distance kernel's pipeline at every grid point, the run of the whole program, and
   its frame: the two argument arrays end as they began.

   At a point the input buffers hold their blocks. An output buffer that the point's case carries holds what the
   point before left, because the block was not written back in between: the query tile's minima are written back
   only after the last reference tile of a sweep, the batch's column minima only after the batch's last point. -/
import proofs.«125048_j82746839925382_1_alg».proof.Proof.KB.Outs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Inside a sweep the query tile's buffer holds what the point before left. -/
theorem before_2_carried (c : Dev nD) (t : Fin cfg0.N) (h0 : ¬t.val % 8 = 0) (d) :
    (dats m 0 c).before 2 t d = (outsAt m c (t.val - 1) (predLt t)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column minima's buffer holds what the point before left. -/
theorem before_3_carried (c : Dev nD) (t : Fin cfg0.N) (h1 : ¬t.val % 64 = 0) (d) :
    (dats m 0 c).before 3 t d = (outsAt m c (t.val - 1) (predLt t)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: by the point's position it is in one of the three cases; the inputs' memrefs hold their
    blocks, a carried output's memref what the point before left; the case's run applies, and what it hands back is
    what `outsAt` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 256 := lt_of_lt_of_eq t.isLt (show cfg0.N = 256 from N_0)
  by_cases h0 : t.val % 8 = 0
  · by_cases h1 : t.val % 64 = 0
    · rw [outsAt_A m c t h0 h1]
      dsimp only
      unfold out_A_2 out_A_3
      iintro ⟨HΦ, Ho, ⟨%d0, H0⟩, ⟨%d1, H1⟩, ⟨%d2, H2⟩, ⟨%d3, H3⟩⟩
      iapply ((kernelRun_A c (grid0.coords t) _ _ _ _ _ _ _ _ ((hcondSweep t).mpr h0) ((hcondBatch t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_A_2 c _ _ _ _ _ _ _ _ _ _ _ _ _)
      unfold owns; iexists _; isplitr
      swap; · iexact H3
      ipureintro; exact View.read_writes_of_cover _ _ _ _ _ (cover_A_3 c _ _ _ _ _ _ _ _ _ _ _ _ _)
    · rw [outsAt_C m c t h0 h1]
      dsimp only
      simp only [before_3_carried m c t h1]
      unfold out_C_2 out_C_3
      iintro ⟨HΦ, Ho, ⟨%d0, H0⟩, ⟨%d1, H1⟩, ⟨%d2, H2⟩, ⟨%d3, H3⟩⟩
      iapply ((kernelRun_C c (grid0.coords t) _ _ _ _ _ _ _ _ ((hcondSweep t).mpr h0) (not_batch_of_mod h1) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_C_2 c _ _ _ _ _ _ _ _ _ _ _ _ _ _)
      unfold owns; iexists _; isplitr
      swap; · iexact H3
      ipureintro; exact (hs3 t).read_writes_unread _ _
  · have h1 : ¬t.val % 64 = 0 := fun h => h0 (by omega)
    rw [outsAt_B m c t h0 h1]
    dsimp only
    simp only [before_2_carried m c t h0, before_3_carried m c t h1]
    unfold out_B_2 out_B_3
    iintro ⟨HΦ, Ho, ⟨%d0, H0⟩, ⟨%d1, H1⟩, ⟨%d2, H2⟩, ⟨%d3, H3⟩⟩
    iapply ((kernelRun_B c (grid0.coords t) _ _ _ _ _ _ _ _ (not_sweep_of_mod h0) (not_batch_of_mod h1) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact (hs2 t).read_writes_unread _ _
    unfold owns; iexists _; isplitr
    swap; · iexact H3
    ipureintro; exact (hs3 t).read_writes_unread _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the library
    computes from the proof data, the buffers the later host lines write at those lines' results of that, and every
    other buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/- The grid of the distance kernel is (batch, query tile, reference tile), 4 x 8 x 8, walked in row-major order:
   point t is (t / 64, (t / 8) % 8, t % 8). The body's two conditionals test the reference tile (first of a sweep:
   the query tile's running minima are reset) and both tiles (first point of a batch: the batch's running column
   minima are reset). This module decides those tests over the grid and names the staging memrefs of a point. -/
import proofs.«125048_j82746839925382_1_alg».proof.Proof.Gen.KernelIdeal.Frame
import proofs.«125048_j82746839925382_1_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reference tile is the first of its sweep. -/
abbrev condSweep (i : grid0.Coords) : Prop :=
  (Scalar.cmpi .ne (Scalar.extui (Scalar.cmpi .eq (BitVec.ofNat 32 (i 2).val) 0#32)) 0#32) = 1#1
/-- That is the case at the points divisible by 8. -/
theorem hcondSweep : ∀ t : Fin cfg0.N, condSweep (grid0.coords t) ↔ t.val % 8 = 0 :=
  (by decide +kernel : ∀ t : Fin grid0.N, condSweep (grid0.coords t) ↔ t.val % 8 = 0)

/-- The point is the first of its batch: query tile and reference tile both zero. -/
abbrev condBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- That is the case at the points divisible by 64. -/
theorem hcondBatch : ∀ t : Fin cfg0.N, condBatch (grid0.coords t) ↔ t.val % 64 = 0 :=
  (by decide +kernel : ∀ t : Fin grid0.N, condBatch (grid0.coords t) ↔ t.val % 64 = 0)

/-- Each window's current staging memref at point `t`, as the pipeline passes it to the body, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x8192 .f32 := win0_3.stage (cfg0.slots t 3)
abbrev hs3 (t : Fin cfg0.N) : (ms3 t).IsWhole := hstage0_3 ((cfg0.slots t 3).cast nbuf0_3)

end Cert.KernelIdeal.Hand

end
-- ==== Proof.KI.RunA.lean ====
/- The body at the first point of a batch: both running minima are reset to plus infinity before they are
   updated. Whatever the two output buffers held is read once and never used. -/
import proofs.«125048_j82746839925382_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1` and anything in the outputs, hands the inputs back as they were
    and each output's memref with those stores written. -/
noncomputable def kernelRun_A (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : condSweep i) (hc1 : condBatch i)
    (x0 : Vec F S1x1024x3 .f32) (x1 : Vec F S1x1024x3 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact H3

end Cert.KernelIdeal.Hand

end
-- ==== Proof.KI.RunB.lean ====
/- The body at a point that is neither the first of a sweep nor the first of a batch: no buffer is reset.
   The query tile's running minima (1024 of them) are replaced by their minimum with the row minima of the
   tile of clamped squared distances; of the batch's running column minima (8192) the slice of the current
   reference tile is replaced by its minimum with the tile's column minima, the rest is kept. -/
import proofs.«125048_j82746839925382_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1` and the running minima `xo2`, `xo3`, hands the inputs back as they
    were and each output's memref with those stores written over what it held. -/
noncomputable def kernelRun_B (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : ¬condSweep i) (hc1 : ¬condBatch i)
    (x0 : Vec F S1x1024x3 .f32) (x1 : Vec F S1x1024x3 .f32) (xo2 : Vec F S1x1x1024 .f32) (xo3 : Vec F S1x1x8192 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1
                ∗ (arg5.view.loc (c : Thread nD τ) ↦[arg5.view.set]{fullShare} arg5.view.writes (Elt F) (harg5.unread xo2) L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexact H2
    iexact H3

end Cert.KernelIdeal.Hand

end
-- ==== Proof.KI.RunC.lean ====
/- The body at the first point of a sweep that is not the first of its batch: the query tile's running minima
   are reset to plus infinity before they are updated; the batch's running column minima are carried, and the
   slice of the current reference tile is updated. -/
import proofs.«125048_j82746839925382_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores into each output's staging memref, newest first, with the proof that the body, run on whole staging
    memrefs holding the two input blocks `x0`, `x1`, anything in the first output and the running column minima
    `xo3` in the second, hands the inputs back as they were, the first output's memref with its stores written and
    the second's with its stores written over what it held. -/
noncomputable def kernelRun_C (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole) (hc0 : condSweep i) (hc1 : ¬condBatch i)
    (x0 : Vec F S1x1024x3 .f32) (x1 : Vec F S1x1024x3 .f32) (xo3 : Vec F S1x1x8192 .f32) :
    Σ' (L2 : List (View.Piece (Elt F) S1x1x1024 .f32)), { L3 : List (View.Piece (Elt F) S1x1x8192 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L2)
                ∗ (arg6.view.loc (c : Thread nD τ) ↦[arg6.view.set]{fullShare} arg6.view.writes (Elt F) (harg6.unread xo3) L3)) -∗ K ⟨⟩))
          ⊢ wp frame (wpE (defs₀ (F := F)) Variants.none c none) E (cc0__chamfer_kernel i arg3 harg3 arg4 harg4 arg5 harg5 arg6 harg6) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexact H3

end Cert.KernelIdeal.Hand

end
-- ==== Proof.KI.Outs.lean ====
/- What the two output staging buffers hold after each grid point, and the pipeline's proof data.

   A point of a batch's first sweep start resets both running minima; the first point of any other sweep resets
   the query tile's minima and carries the batch's column minima; every other point carries both. What a point
   leaves is stated from the stores its run makes: where they fill the block, read back over nothing; where they
   reach only a slice, written over what the point before left. -/
import proofs.«125048_j82746839925382_1_alg».proof.Proof.KI.RunA
import proofs.«125048_j82746839925382_1_alg».proof.Proof.KI.RunB
import proofs.«125048_j82746839925382_1_alg».proof.Proof.KI.RunC
import proofs.«125048_j82746839925382_1_alg».proof.Proof.LibOver

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output window, through which covered contents are stated (the choice does not matter). -/
abbrev VO2 : View sig .tc .vmem S1x1x1024 .f32 := (Memref.whole cc0_stg2_0 : Memref sig .tc .vmem S1x1x1024 .f32).view
abbrev VO3 : View sig .tc .vmem S1x1x8192 .f32 := (Memref.whole cc0_stg3_0 : Memref sig .tc .vmem S1x1x8192 .f32).view

section Cases
variable (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole)
  (x0 : Vec F S1x1024x3 .f32) (x1 : Vec F S1x1024x3 .f32)

/-- At a batch's first point the stores into the query tile's minima fill the block. -/
theorem cover_A_2 (hc0 : condSweep i) (hc1 : condBatch i) (y : S1x1x1024.Idx) :
    ∃ pc ∈ (kernelRun_A c i arg3 harg3 arg4 harg4 arg5 harg5 arg6 harg6 hc0 hc1 x0 x1).1, y ∈ pc.1.set :=
  View.cover_of_wholeMem (kernelRun_A c i arg3 harg3 arg4 harg4 arg5 harg5 arg6 harg6 hc0 hc1 x0 x1).1 (by sl_whole_mem) y
/-- What they leave. -/
def out_A_2 (hc0 : condSweep i) (hc1 : condBatch i) : Vec F S1x1x1024 .f32 :=
  VO2.read (Elt F) (VO2.writes (Elt F) VO2.junk (kernelRun_A c i arg3 harg3 arg4 harg4 arg5 harg5 arg6 harg6 hc0 hc1 x0 x1).1)
/-- At a batch's first point the stores into the column minima fill the block (the reset does). -/
theorem cover_A_3 (hc0 : condSweep i) (hc1 : condBatch i) (y : S1x1x8192.Idx) :
    ∃ pc ∈ (kernelRun_A c i arg3 harg3 arg4 harg4 arg5 harg5 arg6 harg6 hc0 hc1 x0 x1).2.1, y ∈ pc.1.set :=
  View.cover_of_wholeMem (kernelRun_A c i arg3 harg3 arg4 harg4 arg5 harg5 arg6 harg6 hc0 hc1 x0 x1).2.1 (by sl_whole_mem) y
/-- What they leave. -/
def out_A_3 (hc0 : condSweep i) (hc1 : condBatch i) : Vec F S1x1x8192 .f32 :=
  VO3.read (Elt F) (VO3.writes (Elt F) VO3.junk (kernelRun_A c i arg3 harg3 arg4 harg4 arg5 harg5 arg6 harg6 hc0 hc1 x0 x1).2.1)

/-- At a later sweep's first point the stores into the query tile's minima fill the block. -/
theorem cover_C_2 (hc0 : condSweep i) (hc1 : ¬condBatch i) (xo3 : Vec F S1x1x8192 .f32) (y : S1x1x1024.Idx) :
    ∃ pc ∈ (kernelRun_C c i arg3 harg3 arg4 harg4 arg5 harg5 arg6 harg6 hc0 hc1 x0 x1 xo3).1, y ∈ pc.1.set :=
  View.cover_of_wholeMem (kernelRun_C c i arg3 harg3 arg4 harg4 arg5 harg5 arg6 harg6 hc0 hc1 x0 x1 xo3).1 (by sl_whole_mem) y
/-- What they leave. -/
def out_C_2 (hc0 : condSweep i) (hc1 : ¬condBatch i) (xo3 : Vec F S1x1x8192 .f32) : Vec F S1x1x1024 .f32 :=
  VO2.read (Elt F) (VO2.writes (Elt F) VO2.junk (kernelRun_C c i arg3 harg3 arg4 harg4 arg5 harg5 arg6 harg6 hc0 hc1 x0 x1 xo3).1)
/-- The column minima there: the carried ones `xo3` with the point's store written over. -/
def out_C_3 (hc0 : condSweep i) (hc1 : ¬condBatch i) (xo3 : Vec F S1x1x8192 .f32) : Vec F S1x1x8192 .f32 :=
  View.over xo3 (kernelRun_C c i arg3 harg3 arg4 harg4 arg5 harg5 arg6 harg6 hc0 hc1 x0 x1 xo3).2.1

/-- Inside a sweep: the carried minima `xo2` with the point's store written over, -/
def out_B_2 (hc0 : ¬condSweep i) (hc1 : ¬condBatch i) (xo2 : Vec F S1x1x1024 .f32) (xo3 : Vec F S1x1x8192 .f32) : Vec F S1x1x1024 .f32 :=
  View.over xo2 (kernelRun_B c i arg3 harg3 arg4 harg4 arg5 harg5 arg6 harg6 hc0 hc1 x0 x1 xo2 xo3).1
/-- and the carried column minima `xo3` likewise. -/
def out_B_3 (hc0 : ¬condSweep i) (hc1 : ¬condBatch i) (xo2 : Vec F S1x1x1024 .f32) (xo3 : Vec F S1x1x8192 .f32) : Vec F S1x1x8192 .f32 :=
  View.over xo3 (kernelRun_B c i arg3 harg3 arg4 harg4 arg5 harg5 arg6 harg6 hc0 hc1 x0 x1 xo2 xo3).2.1

end Cases

/-! ## Point by point -/

theorem not_mod64_of_not_mod8 {k : ℕ} (h0 : ¬k % 8 = 0) : ¬k % 64 = 0 := fun h => h0 (by omega)
theorem not_batch_of_mod {t : Fin cfg0.N} (h1 : ¬t.val % 64 = 0) : ¬condBatch (grid0.coords t) := fun h => h1 ((hcondBatch t).mp h)
theorem not_sweep_of_mod {t : Fin cfg0.N} (h0 : ¬t.val % 8 = 0) : ¬condSweep (grid0.coords t) := fun h => h0 ((hcondSweep t).mp h)

/-- What the two output staging buffers hold after the body at position `n` of the grid's walk: the case the
    position is in, run on the point's input blocks, reading what position `n - 1` left where the case carries it. -/
def outsAt (c : Dev nD) : (n : ℕ) → n < cfg0.N → Vec F S1x1x1024 .f32 × Vec F S1x1x8192 .f32
  | 0, hn =>
    (out_A_2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcondSweep ⟨0, hn⟩).mpr (Nat.zero_mod _)) ((hcondBatch ⟨0, hn⟩).mpr (Nat.zero_mod _)),
     out_A_3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (iblk m c 0 ⟨0, hn⟩) (iblk m c 1 ⟨0, hn⟩) ((hcondSweep ⟨0, hn⟩).mpr (Nat.zero_mod _)) ((hcondBatch ⟨0, hn⟩).mpr (Nat.zero_mod _)))
  | n + 1, hn =>
    if h0 : (n + 1) % 8 = 0 then
      if h1 : (n + 1) % 64 = 0 then
        (out_A_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) ((hcondBatch ⟨n + 1, hn⟩).mpr h1),
         out_A_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) ((hcondBatch ⟨n + 1, hn⟩).mpr h1))
      else
        (out_C_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) (not_batch_of_mod (t := ⟨n + 1, hn⟩) h1) (outsAt c n (Nat.lt_of_succ_lt hn)).2,
         out_C_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) ((hcondSweep ⟨n + 1, hn⟩).mpr h0) (not_batch_of_mod (t := ⟨n + 1, hn⟩) h1) (outsAt c n (Nat.lt_of_succ_lt hn)).2)
    else
      (out_B_2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (not_sweep_of_mod (t := ⟨n + 1, hn⟩) h0) (not_batch_of_mod (t := ⟨n + 1, hn⟩) (not_mod64_of_not_mod8 h0)) (outsAt c n (Nat.lt_of_succ_lt hn)).1 (outsAt c n (Nat.lt_of_succ_lt hn)).2,
       out_B_3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (iblk m c 0 ⟨n + 1, hn⟩) (iblk m c 1 ⟨n + 1, hn⟩) (not_sweep_of_mod (t := ⟨n + 1, hn⟩) h0) (not_batch_of_mod (t := ⟨n + 1, hn⟩) (not_mod64_of_not_mod8 h0)) (outsAt c n (Nat.lt_of_succ_lt hn)).1 (outsAt c n (Nat.lt_of_succ_lt hn)).2)

/-- The predecessor position, for a statement about `outsAt` at `t - 1`. -/
abbrev predLt (t : Fin cfg0.N) : t.val - 1 < cfg0.N := Nat.lt_of_le_of_lt (Nat.sub_le _ _) t.isLt

/-- `outsAt` at a batch's first point. -/
theorem outsAt_A (c : Dev nD) (t : Fin cfg0.N) (h0 : t.val % 8 = 0) (h1 : t.val % 64 = 0) :
    outsAt m c t.val t.isLt =
      (out_A_2 c (grid0.coords t) (ms0 t) (hs0 t) (ms1 t) (hs1 t) (ms2 t) (hs2 t) (ms3 t) (hs3 t) (iblk m c 0 t) (iblk m c 1 t) ((hcondSweep t).mpr h0) ((hcondBatch t).mpr h1),
       out_A_3 c (grid0.coords t) (ms0 t) (hs0 t) (ms1 t) (hs1 t) (ms2 t) (hs2 t) (ms3 t) (hs3 t) (iblk m c 0 t) (iblk m c 1 t) ((hcondSweep t).mpr h0) ((hcondBatch t).mpr h1)) := by
  obtain ⟨n, hn⟩ := t
  cases n with
  | zero => exact rfl
  | succ n => exact (dif_pos h0).trans ((dif_pos h1).trans rfl)

/-- `outsAt` at a later sweep's first point: over the column minima the point before left. -/
theorem outsAt_C (c : Dev nD) (t : Fin cfg0.N) (h0 : t.val % 8 = 0) (h1 : ¬t.val % 64 = 0) :
    outsAt m c t.val t.isLt =
      (out_C_2 c (grid0.coords t) (ms0 t) (hs0 t) (ms1 t) (hs1 t) (ms2 t) (hs2 t) (ms3 t) (hs3 t) (iblk m c 0 t) (iblk m c 1 t) ((hcondSweep t).mpr h0) (not_batch_of_mod h1) (outsAt m c (t.val - 1) (predLt t)).2,
       out_C_3 c (grid0.coords t) (ms0 t) (hs0 t) (ms1 t) (hs1 t) (ms2 t) (hs2 t) (ms3 t) (hs3 t) (iblk m c 0 t) (iblk m c 1 t) ((hcondSweep t).mpr h0) (not_batch_of_mod h1) (outsAt m c (t.val - 1) (predLt t)).2) := by
  obtain ⟨n, hn⟩ := t
  cases n with
  | zero => exact absurd (Nat.zero_mod _) h1
  | succ n => exact (dif_pos h0).trans ((dif_neg h1).trans rfl)

/-- `outsAt` inside a sweep: over both minima the point before left. -/
theorem outsAt_B (c : Dev nD) (t : Fin cfg0.N) (h0 : ¬t.val % 8 = 0) (h1 : ¬t.val % 64 = 0) :
    outsAt m c t.val t.isLt =
      (out_B_2 c (grid0.coords t) (ms0 t) (hs0 t) (ms1 t) (hs1 t) (ms2 t) (hs2 t) (ms3 t) (hs3 t) (iblk m c 0 t) (iblk m c 1 t) (not_sweep_of_mod h0) (not_batch_of_mod h1) (outsAt m c (t.val - 1) (predLt t)).1 (outsAt m c (t.val - 1) (predLt t)).2,
       out_B_3 c (grid0.coords t) (ms0 t) (hs0 t) (ms1 t) (hs1 t) (ms2 t) (hs2 t) (ms3 t) (hs3 t) (iblk m c 0 t) (iblk m c 1 t) (not_sweep_of_mod h0) (not_batch_of_mod h1) (outsAt m c (t.val - 1) (predLt t)).1 (outsAt m c (t.val - 1) (predLt t)).2) := by
  obtain ⟨n, hn⟩ := t
  cases n with
  | zero => exact absurd (Nat.zero_mod _) h0
  | succ n => exact (dif_neg h0).trans rfl

/-! ## The pipeline's proof data -/

/-- The proof data of the one pipeline on core `c`: the arrays as the region finds them; after the body at point
    `t` each input's buffer at its block and the outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2 := by dsimp only [dats]

end Cert.KernelIdeal.Hand

end
-- ==== Proof.KI.Frame.lean ====
/- The body obligation of the distance kernel's pipeline at every grid point, the run of the whole program, and
   its frame: the two argument arrays end as they began.

   At a point the input buffers hold their blocks. An output buffer that the point's case carries holds what the
   point before left, because the block was not written back in between: the query tile's minima are written back
   only after the last reference tile of a sweep, the batch's column minima only after the batch's last point. -/
import proofs.«125048_j82746839925382_1_alg».proof.Proof.KI.Outs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's current staging buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Inside a sweep the query tile's buffer holds what the point before left. -/
theorem before_2_carried (c : Dev nD) (t : Fin cfg0.N) (h0 : ¬t.val % 8 = 0) (d) :
    (dats m 0 c).before 2 t d = (outsAt m c (t.val - 1) (predLt t)).1 := by
  have hN : t.val < 256 := lt_of_lt_of_eq t.isLt (show cfg0.N = 256 from N_0)
  rw [Dat.before_out_kept _ 2 rfl t (by omega) (Bool.eq_false_iff.mpr fun h => by have := (flush0_2 _).mp h; dsimp only at this; omega)
    (fun _ => rfl) (fun _ _ => rfl)]
  dsimp only [dats]

/-- Inside a batch the column minima's buffer holds what the point before left. -/
theorem before_3_carried (c : Dev nD) (t : Fin cfg0.N) (h1 : ¬t.val % 64 = 0) (d) :
    (dats m 0 c).before 3 t d = (outsAt m c (t.val - 1) (predLt t)).2 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: by the point's position it is in one of the three cases; the inputs' memrefs hold their
    blocks, a carried output's memref what the point before left; the case's run applies, and what it hands back is
    what `outsAt` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  have hN : t.val < 256 := lt_of_lt_of_eq t.isLt (show cfg0.N = 256 from N_0)
  by_cases h0 : t.val % 8 = 0
  · by_cases h1 : t.val % 64 = 0
    · rw [outsAt_A m c t h0 h1]
      dsimp only
      unfold out_A_2 out_A_3
      iintro ⟨HΦ, Ho, ⟨%d0, H0⟩, ⟨%d1, H1⟩, ⟨%d2, H2⟩, ⟨%d3, H3⟩⟩
      iapply ((kernelRun_A c (grid0.coords t) _ _ _ _ _ _ _ _ ((hcondSweep t).mpr h0) ((hcondBatch t).mpr h1) (iblk m c 0 t) (iblk m c 1 t)).2.2 Set.univ _)
      isplitl [H0]; · iexact H0
      isplitl [H1]; · iexact H1
      isplitl [H2]; · iexists _; iexact H2
      isplitl [H3]; · iexists _; iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_A_2 c _ _ _ _ _ _ _ _ _ _ _ _ _)
      unfold owns; iexists _; isplitr
      swap; · iexact H3
      ipureintro; exact View.read_writes_of_cover _ _ _ _ _ (cover_A_3 c _ _ _ _ _ _ _ _ _ _ _ _ _)
    · rw [outsAt_C m c t h0 h1]
      dsimp only
      simp only [before_3_carried m c t h1]
      unfold out_C_2 out_C_3
      iintro ⟨HΦ, Ho, ⟨%d0, H0⟩, ⟨%d1, H1⟩, ⟨%d2, H2⟩, ⟨%d3, H3⟩⟩
      iapply ((kernelRun_C c (grid0.coords t) _ _ _ _ _ _ _ _ ((hcondSweep t).mpr h0) (not_batch_of_mod h1) (iblk m c 0 t) (iblk m c 1 t) _).2.2 Set.univ _)
      isplitl [H0]; · iexact H0
      isplitl [H1]; · iexact H1
      isplitl [H2]; · iexists _; iexact H2
      isplitl [H3]; · iexact H3
      iintro ⟨H0, H1, ⟨%e2, H2⟩, H3⟩
      isplitl [HΦ]; · iexact HΦ
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover_C_2 c _ _ _ _ _ _ _ _ _ _ _ _ _ _)
      unfold owns; iexists _; isplitr
      swap; · iexact H3
      ipureintro; exact (hs3 t).read_writes_unread _ _
  · have h1 : ¬t.val % 64 = 0 := fun h => h0 (by omega)
    rw [outsAt_B m c t h0 h1]
    dsimp only
    simp only [before_2_carried m c t h0, before_3_carried m c t h1]
    unfold out_B_2 out_B_3
    iintro ⟨HΦ, Ho, ⟨%d0, H0⟩, ⟨%d1, H1⟩, ⟨%d2, H2⟩, ⟨%d3, H3⟩⟩
    iapply ((kernelRun_B c (grid0.coords t) _ _ _ _ _ _ _ _ (not_sweep_of_mod h0) (not_batch_of_mod h1) (iblk m c 0 t) (iblk m c 1 t) _ _).2.2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact (hs2 t).read_writes_unread _ _
    unfold owns; iexists _; isplitr
    swap; · iexact H3
    ipureintro; exact (hs3 t).read_writes_unread _ _

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; every array of the pipeline ends at what the library
    computes from the proof data, the buffers the later host lines write at those lines' results of that, and every
    other buffer as the region found it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/- The chamfer specification on the extended reals.

   For two arrays of 3-vectors, x and y of shape [4, 8192, 3] (batch, point, coordinate), the clamped squared
   distance of point i of x and point j of y in batch b is

       dsq x y b i j = max ((|x_bi|^2 + |y_bj|^2) - 2 * <x_bi, y_bj>) 0,

   and the two nearest-neighbour maps are its minima along either axis: near1 over the points of y, near2 over
   the points of x. The constants 2 and 0 are kept as the float words both programs print; the minima are
   lattice infima over all 8192 indices (the infimum over nothing being plus infinity, which is what both
   programs start their running minima from). -/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- The shape of an input: batch, point, coordinate. -/
abbrev Pts : Shape := ⟨3, ![4, 8192, 3]⟩
/-- The shape of a result: batch, point. -/
abbrev Res : Shape := ⟨2, ![4, 8192]⟩

/-- The squared norm of point `i` of batch `b`. -/
def nrm (x : Pts.Idx → EReal) (b : Fin 4) (i : Fin 8192) : EReal := ∑ k : Fin 3, x (ix3 b i k) * x (ix3 b i k)
/-- The inner product of point `i` of `x` and point `j` of `y` in batch `b`. -/
def dotp (x y : Pts.Idx → EReal) (b : Fin 4) (i j : Fin 8192) : EReal := ∑ k : Fin 3, x (ix3 b i k) * y (ix3 b j k)
/-- The clamped squared distance, with the constants as the words the programs print. -/
def dsq (x y : Pts.Idx → EReal) (b : Fin 4) (i j : Fin 8192) : EReal :=
  max ((nrm x b i + nrm y b j) - Ideal.ofBits .f32 0x40000000#32 * dotp x y b i j) (Ideal.ofBits .f32 0x00000000#32)
/-- The squared distance from point `i` of `x` to the nearest point of `y`. -/
def near1 (x y : Pts.Idx → EReal) (b : Fin 4) (i : Fin 8192) : EReal := Finset.univ.inf fun j : Fin 8192 => dsq x y b i j
/-- The squared distance from point `j` of `y` to the nearest point of `x`. -/
def near2 (x y : Pts.Idx → EReal) (b : Fin 4) (j : Fin 8192) : EReal := Finset.univ.inf fun i : Fin 8192 => dsq x y b i j

/-- The two results as arrays. -/
def D1 (x y : Pts.Idx → EReal) : Res.Idx → EReal := fun j => near1 x y (j 0) (j 1)
def D2 (x y : Pts.Idx → EReal) : Res.Idx → EReal := fun j => near2 x y (j 0) (j 1)

/-- The word both programs start a running minimum from is plus infinity. -/
theorem ofBits_inf : Ideal.ofBits .f32 0x7F800000#32 = (⊤ : EReal) := by
  simp [Ideal.ofBits, Ideal.ieee]

/-- On the extended reals `min` is the lattice infimum. -/
theorem min_eq_inf (a b : EReal) : min a b = a ⊓ b := rfl

/-- A fold of `min` from plus infinity over a finite set is the infimum over it. -/
theorem fold_min_top {ι : Type*} (s : Finset ι) (f : ι → EReal) : s.fold min ⊤ f = s.inf f := rfl

/-- A fold of `min` from any start is the start's minimum with the infimum. -/
theorem fold_min_eq {ι : Type*} [DecidableEq ι] (s : Finset ι) (f : ι → EReal) (a : EReal) : s.fold min a f = min a (s.inf f) := by
  induction s using Finset.induction_on with
  | empty => simp
  | insert i s hi ih => rw [Finset.fold_insert hi, Finset.inf_insert, ih, min_eq_inf, min_eq_inf, min_eq_inf]; exact inf_left_comm _ _ _

end Chamfer

end
-- ==== Proof.KI.Blocks.lean ====
/- Which entries of the two argument arrays a grid point's input blocks are, and where its slice of the column
   minima starts: point t = (b, n, m) reads rows n*1024 .. n*1024+1023 of the first array and rows
   m*1024 .. m*1024+1023 of the second, both in batch b, and updates columns m*1024 .. m*1024+1023. -/
import proofs.«125048_j82746839925382_1_alg».proof.Proof.KI.Outs
import proofs.«125048_j82746839925382_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The two argument arrays as the region finds them. -/
abbrev argA (c : Dev nD) : Chamfer.Pts.Idx → EReal := V m c main_arg0
abbrev argB (c : Dev nD) : Chamfer.Pts.Idx → EReal := V m c main_arg1

theorem N256 : cfg0.N = 256 := N_0
theorem lt256 (t : Fin cfg0.N) : t.val < 256 := lt_of_lt_of_eq t.isLt N256

/-- The batch of point `t`, -/
def bOf (t : Fin cfg0.N) : Fin 4 := ⟨t.val / 64, by have := lt256 t; omega⟩
/-- the row of the first array that row `p` of its block is, -/
def rowOf (t : Fin cfg0.N) (p : Fin 1024) : Fin 8192 := ⟨t.val / 8 % 8 * 1024 + p.val, by have := p.isLt; omega⟩
/-- and the row of the second array that row `q` of its block is. -/
def colOf (t : Fin cfg0.N) (q : Fin 1024) : Fin 8192 := ⟨t.val % 8 * 1024 + q.val, by have := q.isLt; omega⟩

/-- The input blocks of point `t`, at their literal type. -/
abbrev blkA (c : Dev nD) (t : Fin cfg0.N) : Vec Ideal S1x1024x3 .f32 := iblk m c 0 t
abbrev blkB (c : Dev nD) (t : Fin cfg0.N) : Vec Ideal S1x1024x3 .f32 := iblk m c 1 t

/-- The block indices of the first array's window at point `t`: batch `t / 64`, row block `t / 8 % 8`, all
    three coordinates. Decided over the 256 grid points. -/
private theorem idxA : ∀ t : Fin cfg0.N, win0_0.index t (0 : Fin 3) = t.val / 64
    ∧ win0_0.index t (1 : Fin 3) = t.val / 8 % 8 ∧ win0_0.index t (2 : Fin 3) = 0 :=
  (by decide +kernel : ∀ t : Fin grid0.N, _)

/-- The block indices of the second array's window at point `t`: batch `t / 64`, row block `t % 8`, all three
    coordinates. Decided over the 256 grid points. -/
private theorem idxB : ∀ t : Fin cfg0.N, win0_1.index t (0 : Fin 3) = t.val / 64
    ∧ win0_1.index t (1 : Fin 3) = t.val % 8 ∧ win0_1.index t (2 : Fin 3) = 0 :=
  (by decide +kernel : ∀ t : Fin grid0.N, _)

/- A block's entry is the array's entry at (block index × block extent + 1 × position in the block) on each axis. -/
theorem blkA_apply (c : Dev nD) (t : Fin cfg0.N) (p : Fin 1024) (k : Fin 3) :
    blkA m c t (ix3 0 p k) = argA m c (ix3 (bOf t) (rowOf t p) k) := by
  obtain ⟨e0, e1, e2⟩ := idxA t
  show V m c main_arg0 (((cfg0.win 0).blk t).view.emb (ix3 0 p k)) = V m c main_arg0 (ix3 (bOf t) (rowOf t p) k)
  congr 1
  funext a; apply Fin.ext
  match a with
  | ⟨0, _⟩ => show win0_0.index t (0 : Fin 3) * 1 + 1 * 0 = t.val / 64; omega
  | ⟨1, _⟩ => show win0_0.index t (1 : Fin 3) * 1024 + 1 * p.val = t.val / 8 % 8 * 1024 + p.val; omega
  | ⟨2, _⟩ => show win0_0.index t (2 : Fin 3) * 3 + 1 * k.val = k.val; omega

theorem blkB_apply (c : Dev nD) (t : Fin cfg0.N) (q : Fin 1024) (k : Fin 3) :
    blkB m c t (ix3 0 q k) = argB m c (ix3 (bOf t) (colOf t q) k) := by
  obtain ⟨e0, e1, e2⟩ := idxB t
  show V m c main_arg1 (((cfg0.win 1).blk t).view.emb (ix3 0 q k)) = V m c main_arg1 (ix3 (bOf t) (colOf t q) k)
  congr 1
  funext a; apply Fin.ext
  match a with
  | ⟨0, _⟩ => show win0_1.index t (0 : Fin 3) * 1 + 1 * 0 = t.val / 64; omega
  | ⟨1, _⟩ => show win0_1.index t (1 : Fin 3) * 1024 + 1 * q.val = t.val % 8 * 1024 + q.val; omega
  | ⟨2, _⟩ => show win0_1.index t (2 : Fin 3) * 3 + 1 * k.val = k.val; omega

/-- Where the point's slice of the column minima starts. -/
theorem off1_eq (t : Fin cfg0.N) : k0_off1 (grid0.coords t) = ![0, 0, t.val % 8 * 1024] :=
  (by decide +kernel : ∀ t : Fin grid0.N, k0_off1 (grid0.coords t) = ![0, 0, t.val % 8 * 1024]) t

end Cert.KernelIdeal.Hand

end
-- ==== Proof.KI.Tile.lean ====
/- The body's arithmetic read at an index, on the extended reals: the tile of clamped squared distances of two
   blocks of 1024 points, its minima along rows and columns joined to the running minima, and the reset value. -/
import proofs.«125048_j82746839925382_1_alg».proof.Proof.Gen.KernelIdeal.Skeleton
import proofs.«125048_j82746839925382_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-! ## Layout operations read at an index: the column forms -/

/-- An `[a]` array cast to `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An `[a]` array cast to `[1, 1, a]` reads, at `(u, w, i)`, the operand at `i`. -/
private theorem shapeCast_a_11a_apply {α : Type} {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp)

/-- A `[1, 1, a]` array cast to `[a]` reads, at `i`, the operand at `(0, 0, i)`. -/
private theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-! ## The reductions' inserted indices -/

/-- Over row `p` of a `[1024, 3]` array the index with coordinate `k` inserted on axis 1 is `(p, k)`. -/
private theorem lift_row3 (h : S1024x3.Reduces [1] S1024) (p : Fin 1024) (k : Fin 3) :
    h.lift (ix1 p) k = ix2 p k := by
  funext c; apply Fin.ext
  match c with
  | ⟨0, _⟩ => rfl
  | ⟨1, _⟩ => rfl

/-- Over row `p` of the tile the index with coordinate `q` inserted on axis 1 is `(p, q)`. -/
private theorem lift_row (h : S1024x1024.Reduces [1] S1024) (p q : Fin 1024) :
    h.lift (ix1 p) q = ix2 p q := by
  funext c; apply Fin.ext
  match c with
  | ⟨0, _⟩ => rfl
  | ⟨1, _⟩ => rfl

/-- Over column `q` of the tile the index with coordinate `p` inserted on axis 0 is `(p, q)`. -/
private theorem lift_col (h : S1024x1024.Reduces [0] S1024) (q p : Fin 1024) :
    h.lift (ix1 q) p = ix2 p q := by
  funext c; apply Fin.ext
  match c with
  | ⟨0, _⟩ => rfl
  | ⟨1, _⟩ => rfl

/-- The squared norm of row `p` of a block: the block viewed `[1024, 3]`, squared, summed along axis 1. -/
private theorem rowsq (x : FVec Ideal S1x1024x3 .f32) (h1 : S1x1024x3.ShapeCasts S1024x3)
    (h2 : S1024x3.Reduces [1] S1024) (hφ : FKind.Formats .f32)
    (hacc : (0x00000000#32 : BitVec 32) = FKind.add.neutral .f32 hφ) (p : Fin 1024) :
    multiReduction (F := Ideal) .add [1] S1024 (mulf (shapeCast S1024x3 x h1) (shapeCast S1024x3 x h1)) 0x00000000#32 h2 hφ hacc (ix1 p)
      = ∑ k : Fin 3, x (ix3 0 p k) * x (ix3 0 p k) := by
  refine (Ideal.multiReduction_add_single _ _ h2 hφ hacc (ix1 p)).trans ?_
  show ∑ k : Fin 3, shapeCast S1024x3 x h1 (h2.lift (ix1 p) k) * shapeCast S1024x3 x h1 (h2.lift (ix1 p) k) = _
  refine Finset.sum_congr rfl fun k _ => ?_
  rw [lift_row3 h2 p k, shapeCast_1ab_ab_apply]

/-- A fold of the minimum from the word of plus infinity over 1024 values is their infimum. -/
private theorem fold_minimumf_inf (f : Fin 1024 → EReal) :
    (Finset.univ : Finset (Fin 1024)).fold (FloatOps.minimumf (F := Ideal) (φ := .f32)) (FloatOps.ofBits (F := Ideal) .f32 0x7F800000#32) f
      = Finset.univ.inf f := by
  show (Finset.univ : Finset (Fin 1024)).fold min (Ideal.ofBits .f32 0x7F800000#32) f = _
  rw [Chamfer.ofBits_inf]
  exact Chamfer.fold_min_top _ _

/-- A row minimum of the tile from plus infinity is the infimum over the row. -/
private theorem rowmin (src : FVec Ideal S1024x1024 .f32) (h : S1024x1024.Reduces [1] S1024) (hφ : FKind.Formats .f32)
    (hacc : (0x7F800000#32 : BitVec 32) = FKind.minimumf.neutral .f32 hφ) (p : Fin 1024) :
    multiReduction (F := Ideal) .minimumf [1] S1024 src 0x7F800000#32 h hφ hacc (ix1 p)
      = Finset.univ.inf fun q : Fin 1024 => src (ix2 p q) := by
  rw [multiReduction_minimumf_eq_fold]
  refine (h.fold_filter_drop_single _ _ src (ix1 p)).trans ?_
  refine (fold_minimumf_inf (src ∘ h.lift (ix1 p))).trans ?_
  exact congrArg Finset.univ.inf (funext fun q => congrArg src (lift_row h p q))

/-- A column minimum of the tile from plus infinity is the infimum over the column. -/
private theorem colmin (src : FVec Ideal S1024x1024 .f32) (h : S1024x1024.Reduces [0] S1024) (hφ : FKind.Formats .f32)
    (hacc : (0x7F800000#32 : BitVec 32) = FKind.minimumf.neutral .f32 hφ) (q : Fin 1024) :
    multiReduction (F := Ideal) .minimumf [0] S1024 src 0x7F800000#32 h hφ hacc (ix1 q)
      = Finset.univ.inf fun p : Fin 1024 => src (ix2 p q) := by
  rw [multiReduction_minimumf_eq_fold]
  refine (h.fold_filter_drop_single _ _ src (ix1 q)).trans ?_
  refine (fold_minimumf_inf (src ∘ h.lift (ix1 q))).trans ?_
  exact congrArg Finset.univ.inf (funext fun p => congrArg src (lift_col h q p))

/-! ## The product of a `[1024, 3]` block by a `[3, 1024]` one at an index -/

/-- At output index `i` and contraction coordinate `k` the left operand is read at `(i 0, k)` and the right one at
    `(k, i 1)`: the four coordinates, one lemma each. -/
private theorem lhs_tile_0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
private theorem lhs_tile_1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
private theorem rhs_tile_0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
private theorem rhs_tile_1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The matrix product into the zero splat, at `(p, q)`: the sum over the three coordinates. -/
private theorem mm_apply (l : FVec Ideal S1024x3 .f32) (r : FVec Ideal S3x1024 .f32) (p q : Fin 1024) :
    matmul (F := Ideal) dot_S1024x3_S3x1024_S1024x1024_1_0_0_1_n_n none l r (constant (F := Ideal) S1024x1024 .f32 0x00000000#32) (ix2 p q)
      = ∑ k : Fin 3, l (ix2 p k) * r (ix2 k q) := by
  simp only [matmul]
  rw [Ideal.matmul_constant_zero_apply, ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p q) ((contrEquiv1 dot_S1024x3_S3x1024_S1024x1024_1_0_0_1_n_n 3 rfl rfl).symm k) = ix2 p k := funext fun a => Fin.ext (by
    match a with
    | ⟨0, _⟩ => exact lhs_tile_0 _ _
    | ⟨1, _⟩ => exact (lhs_tile_1 _ _).trans hk)
  have er : dot_S1024x3_S3x1024_S1024x1024_1_0_0_1_n_n.rhsIdx (ix2 p q) ((contrEquiv1 dot_S1024x3_S3x1024_S1024x1024_1_0_0_1_n_n 3 rfl rfl).symm k) = ix2 k q := funext fun a => Fin.ext (by
    match a with
    | ⟨0, _⟩ => exact (rhs_tile_0 _ _).trans hk
    | ⟨1, _⟩ => exact rhs_tile_1 _ _)
  rw [el, er]

/-! ## The tile and the body's values at an index -/

/-- The clamped squared distance of row `p` of block `x0` and row `q` of block `x1`. -/
def tile (x0 x1 : Vec Ideal S1x1024x3 .f32) (p q : Fin 1024) : EReal :=
  max (((∑ k : Fin 3, x0 (ix3 0 p k) * x0 (ix3 0 p k)) + (∑ k : Fin 3, x1 (ix3 0 q k) * x1 (ix3 0 q k)))
      - Ideal.ofBits .f32 0x40000000#32 * (∑ k : Fin 3, x0 (ix3 0 p k) * x1 (ix3 0 q k))) (Ideal.ofBits .f32 0x00000000#32)

theorem pay3_apply (x0 x1 : Vec Ideal S1x1024x3 .f32) (p q : Fin 1024) :
    k0_pay3 (F := Ideal) x0 x1 (ix2 p q) = tile x0 x1 p q := by
  unfold k0_pay3 tile
  dsimp only
  simp only [maximumf_apply, subf_apply, addf_apply, mulf_apply, broadcast_apply]
  refine congrArg₂ max (congrArg₂ (· - ·) (congrArg₂ (· + ·) ?_ ?_) (congrArg₂ (· * ·) rfl ?_)) rfl
  · exact (broadcastTo_a1_ab_apply _ _ p q).trans ((shapeCast_a_a1_apply _ _ p 0).trans (rowsq x0 _ _ _ _ p))
  · exact (broadcastTo_1b_ab_apply _ _ p q).trans ((shapeCast_a_1a_apply _ _ 0 q).trans (rowsq x1 _ _ _ _ q))
  · refine (mm_apply _ _ p q).trans (Finset.sum_congr rfl fun k _ => ?_)
    exact congrArg₂ (· * ·) (shapeCast_1ab_ab_apply x0 _ p k)
      ((transpose_ix2_apply _ _ k q).trans (shapeCast_1ab_ab_apply x1 _ q k))

/-- The query tile's running minima after a point: each joined with its row's minimum over the tile. -/
theorem pay5_apply (x0 x1 : Vec Ideal S1x1024x3 .f32) (v : Vec Ideal S1x1x1024 .f32) (p : Fin 1024) :
    k0_pay5 (F := Ideal) x0 x1 v (ix3 0 0 p) = min (v (ix3 0 0 p)) (Finset.univ.inf fun q : Fin 1024 => tile x0 x1 p q) := by
  unfold k0_pay5
  dsimp only
  refine (shapeCast_a_11a_apply _ _ 0 0 p).trans ?_
  refine (minimumf_apply _ _ (ix1 p)).trans ?_
  refine congrArg₂ min (shapeCast_11a_a_apply v _ p) ?_
  refine (rowmin (k0_pay3 (F := Ideal) x0 x1) _ _ _ p).trans ?_
  exact congrArg Finset.univ.inf (funext fun q => pay3_apply x0 x1 p q)

/-- The slice of running column minima after a point: each joined with its column's minimum over the tile. -/
theorem pay2_apply (x0 x1 : Vec Ideal S1x1024x3 .f32) (v : Vec Ideal S1x1x1024 .f32) (q : Fin 1024) :
    k0_pay2 (F := Ideal) (k0_pay3 (F := Ideal) x0 x1) v (ix3 0 0 q) = min (v (ix3 0 0 q)) (Finset.univ.inf fun p : Fin 1024 => tile x0 x1 p q) := by
  unfold k0_pay2
  dsimp only
  refine (shapeCast_a_11a_apply _ _ 0 0 q).trans ?_
  refine (minimumf_apply _ _ (ix1 q)).trans ?_
  refine congrArg₂ min (shapeCast_11a_a_apply v _ q) ?_
  refine (colmin (k0_pay3 (F := Ideal) x0 x1) _ _ _ q).trans ?_
  exact congrArg Finset.univ.inf (funext fun p => pay3_apply x0 x1 p q)

/-- The reset values are plus infinity. -/
theorem pay4_apply (y : S1x1x1024.Idx) : k0_pay4 (F := Ideal) y = (⊤ : EReal) := by
  unfold k0_pay4
  exact Chamfer.ofBits_inf
theorem pay1_apply (y : S1x1x8192.Idx) : k0_pay1 (F := Ideal) y = (⊤ : EReal) := by
  unfold k0_pay1
  exact Chamfer.ofBits_inf

end Cert.KernelIdeal.Hand

end
-- ==== Proof.KI.Pieces.lean ====
/- What each case of the body leaves in the two output buffers, in terms of the body's arithmetic: the query
   tile's minima are one whole store; the column minima are the carried ones (or the reset value) with the
   point's slice replaced. -/
import proofs.«125048_j82746839925382_1_alg».proof.Proof.KI.Outs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets (0,0,0), however spelt, are the zero offsets. -/
private theorem hz3 : (![0, 0, 0] : Fin 3 → ℕ) = fun _ => 0 := by
  funext a; fin_cases a <;> rfl

/-- A store through the whole block, newest, leaves its payload whatever was there and whatever was stored before. -/
private theorem over_cons_unit_zero {Val : EltTy → Type} {S : Shape} {e : EltTy} (X : S.Idx → Val e)
    {off : Fin S.rank → ℕ} (h : off = fun _ => 0) (inb : ∀ a, off a + S.size a ≤ S.size a) (w : S.Idx → Val e)
    (L : List (View.Piece Val S e)) :
    View.over X ((⟨Rect.unit off S.size inb, w⟩ : View.Piece Val S e) :: L) = w := by
  subst h; funext y
  have e := View.over_cons_emb (Val := Val) X (Rect.whole S) w L y
  rw [Rect.emb_whole_apply] at e
  exact e

/-- In a covered read, an index at position `x` of the newest store's unit-stride rectangle reads that store's payload at `x`. -/
private theorem canon_cons_unit_of_mem {Val : EltTy → Type} [∀ e, Nonempty (Val e)] {s : Shape} {e : EltTy}
    {off off' size : Fin s.rank → ℕ} (inb : ∀ a, off a + size a ≤ s.size a)
    (w : (Rect.unit off size inb).shape.Idx → Val e) (L : List (View.Piece Val s e)) (y : s.Idx)
    (x : (Rect.unit off size inb).shape.Idx) (heq : off = off') (hx : ∀ a, (y a).val = off' a + (x a).val) :
    View.canon ((⟨Rect.unit off size inb, w⟩ : View.Piece Val s e) :: L) y = w x := by
  subst heq
  have hy : (Rect.unit off size inb).emb x = y := funext fun a => Fin.ext (by
    show off a + 1 * (x a).val = (y a).val
    rw [hx a, Nat.one_mul])
  exact (congrArg (View.canon ((⟨Rect.unit off size inb, w⟩ : View.Piece Val s e) :: L)) hy.symm).trans
    (View.canon_cons_emb (Rect.unit off size inb) w L x)

/-- An index outside the newest store's unit-stride rectangle on axis `a` reads what the earlier stores left. -/
private theorem canon_cons_unit_of_not_mem {Val : EltTy → Type} [∀ e, Nonempty (Val e)] {s : Shape} {e : EltTy}
    {off off' size : Fin s.rank → ℕ} (inb : ∀ a, off a + size a ≤ s.size a)
    (w : (Rect.unit off size inb).shape.Idx → Val e) (L : List (View.Piece Val s e)) (y : s.Idx) (heq : off = off')
    (a : Fin s.rank) (ha : (y a).val < off' a ∨ off' a + size a ≤ (y a).val) :
    View.canon ((⟨Rect.unit off size inb, w⟩ : View.Piece Val s e) :: L) y = View.canon L y := by
  subst heq
  refine View.canon_cons_of_not_mem _ L ?_
  rw [Rect.mem_set_unit]
  intro hall
  have := hall a
  omega

section
variable (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1024 .f32) (harg5 : arg5.IsWhole) (arg6 : Memref sig .tc .vmem S1x1x8192 .f32) (harg6 : arg6.IsWhole)
  (x0 : Vec F S1x1024x3 .f32) (x1 : Vec F S1x1024x3 .f32)

/-- The slice of a row of 8192 that the point at coordinates `i` updates. -/
abbrev slice3 (X : Vec F S1x1x8192 .f32) : Vec F S1x1x1024 .f32 :=
  fun x => X ((Rect.unit (s := S1x1x8192) (k0_off1 i) S1x1x1024.size (k0_off1_inb i)).emb x)

theorem out_A_2_eq (hc0 : condSweep i) (hc1 : condBatch i) :
    out_A_2 c i arg3 harg3 arg4 harg4 arg5 harg5 arg6 harg6 x0 x1 hc0 hc1 = k0_pay5 x0 x1 (k0_pay4 (F := F)) := by
  unfold out_A_2
  rw [View.read_writes_eq_canon _ _ _ (cover_A_2 c i arg3 harg3 arg4 harg4 arg5 harg5 arg6 harg6 x0 x1 hc0 hc1)]
  unfold kernelRun_A
  dsimp only
  sl_unfold_words
  rw [View.canon_cons_unit_zero (S := S1x1x1024) hz3]
  simp only [View.readAt_eq_ld, harg3.read_unread, harg4.read_unread,
    View.ld_unit_zero (S := S1x1024x3) hz3, View.readCov_unit_zero (S := S1x1x1024) _ hz3]

theorem out_C_2_eq (hc0 : condSweep i) (hc1 : ¬condBatch i) (xo3 : Vec F S1x1x8192 .f32) :
    out_C_2 c i arg3 harg3 arg4 harg4 arg5 harg5 arg6 harg6 x0 x1 hc0 hc1 xo3 = k0_pay5 x0 x1 (k0_pay4 (F := F)) := by
  unfold out_C_2
  rw [View.read_writes_eq_canon _ _ _ (cover_C_2 c i arg3 harg3 arg4 harg4 arg5 harg5 arg6 harg6 x0 x1 hc0 hc1 xo3)]
  unfold kernelRun_C
  dsimp only
  sl_unfold_words
  rw [View.canon_cons_unit_zero (S := S1x1x1024) hz3]
  simp only [View.readAt_eq_ld, harg3.read_unread, harg4.read_unread,
    View.ld_unit_zero (S := S1x1024x3) hz3, View.readCov_unit_zero (S := S1x1x1024) _ hz3]

theorem out_B_2_eq (hc0 : ¬condSweep i) (hc1 : ¬condBatch i) (xo2 : Vec F S1x1x1024 .f32) (xo3 : Vec F S1x1x8192 .f32) :
    out_B_2 c i arg3 harg3 arg4 harg4 arg5 harg5 arg6 harg6 x0 x1 hc0 hc1 xo2 xo3 = k0_pay5 x0 x1 xo2 := by
  unfold out_B_2
  unfold kernelRun_B
  dsimp only
  sl_unfold_words
  rw [over_cons_unit_zero (S := S1x1x1024) _ hz3]
  simp only [View.readAt_eq_ld, harg3.read_unread, harg4.read_unread, harg5.read_unread,
    View.ld_unit_zero (S := S1x1024x3) hz3, View.ld_unit_zero (S := S1x1x1024) hz3]

/-- Inside the point's slice: the updated minima. -/
theorem out_A_3_mem (hc0 : condSweep i) (hc1 : condBatch i) (y : S1x1x8192.Idx) (x : S1x1x1024.Idx)
    (hx : ∀ a, (y a).val = k0_off1 i a + (x a).val) :
    out_A_3 c i arg3 harg3 arg4 harg4 arg5 harg5 arg6 harg6 x0 x1 hc0 hc1 y = k0_pay2 (k0_pay3 x0 x1) (slice3 i (k0_pay1 (F := F))) x := by
  unfold out_A_3
  rw [View.read_writes_eq_canon _ _ _ (cover_A_3 c i arg3 harg3 arg4 harg4 arg5 harg5 arg6 harg6 x0 x1 hc0 hc1)]
  unfold kernelRun_A
  dsimp only
  sl_unfold_words
  refine (canon_cons_unit_of_mem _ _ _ y x rfl hx).trans ?_
  simp only [View.readAt_eq_ld, harg3.read_unread, harg4.read_unread,
    View.ld_unit_zero (S := S1x1024x3) hz3, View.read_writes_junk_eq_canon,
    View.canon_unit_zero (S := S1x1x8192) hz3]
  rfl
/-- Outside it: the reset value. -/
theorem out_A_3_not_mem (hc0 : condSweep i) (hc1 : condBatch i) (y : S1x1x8192.Idx) (a : Fin 3)
    (ha : (y a).val < k0_off1 i a ∨ k0_off1 i a + S1x1x1024.size a ≤ (y a).val) :
    out_A_3 c i arg3 harg3 arg4 harg4 arg5 harg5 arg6 harg6 x0 x1 hc0 hc1 y = k0_pay1 (F := F) y := by
  unfold out_A_3
  rw [View.read_writes_eq_canon _ _ _ (cover_A_3 c i arg3 harg3 arg4 harg4 arg5 harg5 arg6 harg6 x0 x1 hc0 hc1)]
  unfold kernelRun_A
  dsimp only
  sl_unfold_words
  refine (canon_cons_unit_of_not_mem _ _ _ y rfl a ha).trans ?_
  rw [View.canon_unit_zero (S := S1x1x8192) hz3]

theorem out_C_3_mem (hc0 : condSweep i) (hc1 : ¬condBatch i) (xo3 : Vec F S1x1x8192 .f32) (y : S1x1x8192.Idx) (x : S1x1x1024.Idx)
    (hx : ∀ a, (y a).val = k0_off1 i a + (x a).val) :
    out_C_3 c i arg3 harg3 arg4 harg4 arg5 harg5 arg6 harg6 x0 x1 hc0 hc1 xo3 y = k0_pay2 (k0_pay3 x0 x1) (slice3 i xo3) x := by
  unfold out_C_3
  unfold kernelRun_C
  dsimp only
  sl_unfold_words
  refine (View.over_cons_unit_of_mem xo3 _ _ _ y x rfl hx).trans ?_
  simp only [View.readAt_eq_ld, harg3.read_unread, harg4.read_unread, harg6.read_unread,
    View.ld_unit_zero (S := S1x1024x3) hz3]
  rfl
theorem out_C_3_not_mem (hc0 : condSweep i) (hc1 : ¬condBatch i) (xo3 : Vec F S1x1x8192 .f32) (y : S1x1x8192.Idx) (a : Fin 3)
    (ha : (y a).val < k0_off1 i a ∨ k0_off1 i a + S1x1x1024.size a ≤ (y a).val) :
    out_C_3 c i arg3 harg3 arg4 harg4 arg5 harg5 arg6 harg6 x0 x1 hc0 hc1 xo3 y = xo3 y := by
  unfold out_C_3
  unfold kernelRun_C
  dsimp only
  sl_unfold_words
  exact View.over_cons_unit_of_not_mem xo3 _ _ _ y rfl a ha

theorem out_B_3_mem (hc0 : ¬condSweep i) (hc1 : ¬condBatch i) (xo2 : Vec F S1x1x1024 .f32) (xo3 : Vec F S1x1x8192 .f32) (y : S1x1x8192.Idx) (x : S1x1x1024.Idx)
    (hx : ∀ a, (y a).val = k0_off1 i a + (x a).val) :
    out_B_3 c i arg3 harg3 arg4 harg4 arg5 harg5 arg6 harg6 x0 x1 hc0 hc1 xo2 xo3 y = k0_pay2 (k0_pay3 x0 x1) (slice3 i xo3) x := by
  unfold out_B_3
  unfold kernelRun_B
  dsimp only
  sl_unfold_words
  refine (View.over_cons_unit_of_mem xo3 _ _ _ y x rfl hx).trans ?_
  simp only [View.readAt_eq_ld, harg3.read_unread, harg4.read_unread, harg6.read_unread,
    View.ld_unit_zero (S := S1x1024x3) hz3]
  rfl
theorem out_B_3_not_mem (hc0 : ¬condSweep i) (hc1 : ¬condBatch i) (xo2 : Vec F S1x1x1024 .f32) (xo3 : Vec F S1x1x8192 .f32) (y : S1x1x8192.Idx) (a : Fin 3)
    (ha : (y a).val < k0_off1 i a ∨ k0_off1 i a + S1x1x1024.size a ≤ (y a).val) :
    out_B_3 c i arg3 harg3 arg4 harg4 arg5 harg5 arg6 harg6 x0 x1 hc0 hc1 xo2 xo3 y = xo3 y := by
  unfold out_B_3
  unfold kernelRun_B
  dsimp only
  sl_unfold_words
  exact View.over_cons_unit_of_not_mem xo3 _ _ _ y rfl a ha

end

end Cert.KernelIdeal.Hand

end
-- ==== Proof.KI.Inv2.lean ====
/- The query tile's running minima, point by point.

   Walk the grid in order and look at point t = (b, n, m). The query tile's buffer then holds, for each of its
   1024 rows, the minimum of the clamped squared distances to the points of the second array seen so far in the
   sweep: columns 0 .. (m+1)*1024 - 1. By induction on the position: the first point of a sweep starts from plus
   infinity, every later one from what the point before left. -/
import proofs.«125048_j82746839925382_1_alg».proof.Proof.KI.Blocks
import proofs.«125048_j82746839925382_1_alg».proof.Proof.KI.Tile
import proofs.«125048_j82746839925382_1_alg».proof.Proof.KI.Pieces

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The infimum over the `k`-th block of 1024 consecutive indices of 8192 is the infimum over the block's
    positions. -/
private theorem inf_block (k : ℕ) (hk : k < 8) (f : Fin 8192 → EReal) :
    (Finset.univ.filter fun j : Fin 8192 => k * 1024 ≤ j.val ∧ j.val < (k + 1) * 1024).inf f
      = Finset.univ.inf fun q : Fin 1024 => f ⟨k * 1024 + q.val, by have := q.isLt; omega⟩ := by
  have hset : (Finset.univ.filter fun j : Fin 8192 => k * 1024 ≤ j.val ∧ j.val < (k + 1) * 1024)
      = Finset.univ.image (fun q : Fin 1024 => (⟨k * 1024 + q.val, by have := q.isLt; omega⟩ : Fin 8192)) := by
    ext j
    simp only [Finset.mem_filter, Finset.mem_univ, true_and, Finset.mem_image]
    constructor
    · rintro ⟨h1, h2⟩
      exact ⟨⟨j.val - k * 1024, by omega⟩, Fin.ext (by show k * 1024 + (j.val - k * 1024) = j.val; omega)⟩
    · rintro ⟨q, rfl⟩
      have := q.isLt
      show k * 1024 ≤ k * 1024 + q.val ∧ k * 1024 + q.val < (k + 1) * 1024
      omega
  rw [hset, Finset.inf_image]
  rfl

/-- The tile of a point's two blocks is the clamped squared distance of the arrays' rows the blocks are. -/
private theorem tile_eq (c : Dev nD) (t : Fin cfg0.N) (p q : Fin 1024) :
    tile (blkA m c t) (blkB m c t) p q
      = Chamfer.dsq (argA m c) (argB m c) (bOf t) (rowOf t p) (colOf t q) := by
  unfold tile Chamfer.dsq Chamfer.nrm Chamfer.dotp
  simp only [blkA_apply, blkB_apply]

/-- A row's minimum over the point's tile is the minimum over the point's block of columns. -/
private theorem row_inf (c : Dev nD) (t : Fin cfg0.N) (p : Fin 1024) :
    (Finset.univ.inf fun q : Fin 1024 => tile (blkA m c t) (blkB m c t) p q)
      = (Finset.univ.filter fun j : Fin 8192 => t.val % 8 * 1024 ≤ j.val ∧ j.val < (t.val % 8 + 1) * 1024).inf
          fun j => Chamfer.dsq (argA m c) (argB m c) (bOf t) (rowOf t p) j := by
  rw [inf_block (t.val % 8) (by omega)]
  refine Finset.inf_congr rfl ?_
  intro q _
  exact tile_eq m c t p q

/-- One step of the induction: the statement at `t` from the statement at the position before, which is needed
    only inside a sweep. -/
private theorem inv2_step (c : Dev nD) (t : Fin cfg0.N)
    (ih : ¬t.val % 8 = 0 → ∀ p : Fin 1024,
      (outsAt m c (t.val - 1) (predLt t)).1 (ix3 0 0 p)
        = (Finset.univ.filter fun j : Fin 8192 => j.val < ((t.val - 1) % 8 + 1) * 1024).inf
            fun j => Chamfer.dsq (argA m c) (argB m c) (bOf ⟨t.val - 1, predLt t⟩) (rowOf ⟨t.val - 1, predLt t⟩ p) j)
    (p : Fin 1024) :
    (outsAt m c t.val t.isLt).1 (ix3 0 0 p)
      = (Finset.univ.filter fun j : Fin 8192 => j.val < (t.val % 8 + 1) * 1024).inf
          fun j => Chamfer.dsq (argA m c) (argB m c) (bOf t) (rowOf t p) j := by
  by_cases h0 : t.val % 8 = 0
  · -- a sweep's first point: the running minima restart from plus infinity
    have hset : (Finset.univ.filter fun j : Fin 8192 => j.val < (t.val % 8 + 1) * 1024)
        = Finset.univ.filter fun j : Fin 8192 => t.val % 8 * 1024 ≤ j.val ∧ j.val < (t.val % 8 + 1) * 1024 := by
      ext j
      simp only [Finset.mem_filter, Finset.mem_univ, true_and]
      omega
    by_cases h1 : t.val % 64 = 0
    · rw [outsAt_A m c t h0 h1]
      dsimp only
      refine (congrFun (out_A_2_eq (F := Ideal) c (grid0.coords t) (ms0 t) (hs0 t) (ms1 t) (hs1 t) (ms2 t) (hs2 t)
        (ms3 t) (hs3 t) (blkA m c t) (blkB m c t) ((hcondSweep t).mpr h0) ((hcondBatch t).mpr h1)) (ix3 0 0 p)).trans ?_
      rw [pay5_apply, pay4_apply, min_top_left, row_inf, hset]
    · rw [outsAt_C m c t h0 h1]
      dsimp only
      refine (congrFun (out_C_2_eq (F := Ideal) c (grid0.coords t) (ms0 t) (hs0 t) (ms1 t) (hs1 t) (ms2 t) (hs2 t)
        (ms3 t) (hs3 t) (blkA m c t) (blkB m c t) ((hcondSweep t).mpr h0) (not_batch_of_mod h1)
        (outsAt m c (t.val - 1) (predLt t)).2) (ix3 0 0 p)).trans ?_
      rw [pay5_apply, pay4_apply, min_top_left, row_inf, hset]
  · -- inside a sweep: what the point before left, joined with the row's minimum over the new block of columns
    have h1 : ¬t.val % 64 = 0 := not_mod64_of_not_mod8 h0
    have hlt := lt256 t
    have hb : bOf ⟨t.val - 1, predLt t⟩ = bOf t := by
      unfold bOf
      apply Fin.ext
      show (t.val - 1) / 64 = t.val / 64
      omega
    have hr : rowOf ⟨t.val - 1, predLt t⟩ p = rowOf t p := by
      unfold rowOf
      apply Fin.ext
      show (t.val - 1) / 8 % 8 * 1024 + p.val = t.val / 8 % 8 * 1024 + p.val
      omega
    have hset : (Finset.univ.filter fun j : Fin 8192 => j.val < ((t.val - 1) % 8 + 1) * 1024)
        ∪ (Finset.univ.filter fun j : Fin 8192 => t.val % 8 * 1024 ≤ j.val ∧ j.val < (t.val % 8 + 1) * 1024)
        = Finset.univ.filter fun j : Fin 8192 => j.val < (t.val % 8 + 1) * 1024 := by
      ext j
      simp only [Finset.mem_union, Finset.mem_filter, Finset.mem_univ, true_and]
      omega
    rw [outsAt_B m c t h0 h1]
    dsimp only
    refine (congrFun (out_B_2_eq (F := Ideal) c (grid0.coords t) (ms0 t) (hs0 t) (ms1 t) (hs1 t) (ms2 t) (hs2 t)
      (ms3 t) (hs3 t) (blkA m c t) (blkB m c t) (not_sweep_of_mod h0) (not_batch_of_mod h1)
      (outsAt m c (t.val - 1) (predLt t)).1 (outsAt m c (t.val - 1) (predLt t)).2) (ix3 0 0 p)).trans ?_
    rw [pay5_apply, ih h0 p, hb, hr, row_inf, Chamfer.min_eq_inf, ← Finset.inf_union, hset]

/-- After point `t` row `p` of the query tile's minima is the minimum over the columns the sweep has reached. -/
theorem inv2 (c : Dev nD) (t : Fin cfg0.N) (p : Fin 1024) :
    (outsAt m c t.val t.isLt).1 (ix3 0 0 p)
      = (Finset.univ.filter fun j : Fin 8192 => j.val < (t.val % 8 + 1) * 1024).inf
          fun j => Chamfer.dsq (argA m c) (argB m c) (bOf t) (rowOf t p) j := by
  obtain ⟨n, hn⟩ := t
  induction n using Nat.strong_induction_on generalizing p with
  | _ n ih =>
    exact inv2_step m c ⟨n, hn⟩
      (fun h p => ih (n - 1) (by have h' : ¬n % 8 = 0 := h; omega) p (predLt ⟨n, hn⟩)) p

end Cert.KernelIdeal.Hand

end
-- ==== Proof.KI.Inv3.lean ====
/- The batch's running column minima, point by point.

   Walk the grid in order and look at point t = (b, n, m). The batch's buffer of column minima then holds, for
   each of the 8192 columns q, the minimum over the rows of the tiles (n', q / 1024) already visited in the batch,
   that is those with n' * 8 + q / 1024 <= n * 8 + m; nothing visited means plus infinity. By induction on the
   position: the first point of a batch starts from plus infinity, every later one from what the point before
   left, and a point changes only the columns of its own reference tile. -/
import proofs.«125048_j82746839925382_1_alg».proof.Proof.KI.Blocks
import proofs.«125048_j82746839925382_1_alg».proof.Proof.KI.Tile
import proofs.«125048_j82746839925382_1_alg».proof.Proof.KI.Pieces

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## Finite-set algebra on the extended reals -/

/-- The infimum over the 1024 rows of tile k, listed by an enumeration e of them, is the infimum over the
    indices whose quotient by 1024 is k. -/
private theorem inf_rows (g : Fin 8192 → EReal) (k : ℕ) (e : Fin 1024 → Fin 8192)
    (he : ∀ p, (e p).val = k * 1024 + p.val) :
    (Finset.univ.inf fun p : Fin 1024 => g (e p))
      = (Finset.univ.filter fun i : Fin 8192 => i.val / 1024 = k).inf g := by
  apply le_antisymm
  · apply Finset.le_inf
    intro i hi
    rw [Finset.mem_filter] at hi
    have hlt : i.val % 1024 < 1024 := Nat.mod_lt _ (by norm_num)
    have hle : (Finset.univ.inf fun p : Fin 1024 => g (e p)) ≤ g (e ⟨i.val % 1024, hlt⟩) :=
      Finset.inf_le (f := fun p : Fin 1024 => g (e p)) (Finset.mem_univ _)
    have hi' : e ⟨i.val % 1024, hlt⟩ = i := Fin.ext (by rw [he]; show k * 1024 + i.val % 1024 = i.val; omega)
    rw [hi'] at hle
    exact hle
  · apply Finset.le_inf
    intro p _
    exact Finset.inf_le (Finset.mem_filter.mpr ⟨Finset.mem_univ _, by rw [he]; have := p.isLt; omega⟩)

/-- Inside the point's slice: the tiles visited up to the point are those visited before it and the point's own. -/
private theorem inf_in (g : Fin 8192 → EReal) (t : Fin cfg0.N) (q : Fin 8192) (hs : q.val / 1024 = t.val % 8) :
    min ((Finset.univ.filter fun i : Fin 8192 => i.val / 1024 * 8 + q.val / 1024 < t.val % 64).inf g)
        (Finset.univ.inf fun p : Fin 1024 => g (rowOf t p))
      = (Finset.univ.filter fun i : Fin 8192 => i.val / 1024 * 8 + q.val / 1024 ≤ t.val % 64).inf g := by
  rw [inf_rows g (t.val / 8 % 8) (rowOf t) (fun p => rfl), Chamfer.min_eq_inf, ← Finset.inf_union]
  refine congrArg (fun s => Finset.inf s g) ?_
  ext i
  simp only [Finset.mem_union, Finset.mem_filter, Finset.mem_univ, true_and]
  omega

/-- Outside the point's slice: no tile of the column is the point's own. -/
private theorem inf_out (g : Fin 8192 → EReal) (t : Fin cfg0.N) (q : Fin 8192) (hs : ¬q.val / 1024 = t.val % 8) :
    (Finset.univ.filter fun i : Fin 8192 => i.val / 1024 * 8 + q.val / 1024 < t.val % 64).inf g
      = (Finset.univ.filter fun i : Fin 8192 => i.val / 1024 * 8 + q.val / 1024 ≤ t.val % 64).inf g := by
  refine congrArg (fun s => Finset.inf s g) ?_
  ext i
  simp only [Finset.mem_filter, Finset.mem_univ, true_and]
  have := q.isLt
  omega

/-- Before a batch's first point nothing is visited. -/
private theorem inf_base0 (g : Fin 8192 → EReal) (t : Fin cfg0.N) (q : Fin 8192) (h1 : t.val % 64 = 0) :
    (Finset.univ.filter fun i : Fin 8192 => i.val / 1024 * 8 + q.val / 1024 < t.val % 64).inf g = ⊤ := by
  have : (Finset.univ.filter fun i : Fin 8192 => i.val / 1024 * 8 + q.val / 1024 < t.val % 64) = ∅ := by
    ext i
    simp only [Finset.mem_filter, Finset.mem_univ, true_and, Finset.notMem_empty, iff_false]
    omega
  rw [this, Finset.inf_empty]

/-- Before a later point: what was visited up to the point before. -/
private theorem inf_pred (g : Fin 8192 → EReal) (t : Fin cfg0.N) (q : Fin 8192) (h1 : ¬t.val % 64 = 0) :
    (Finset.univ.filter fun i : Fin 8192 => i.val / 1024 * 8 + q.val / 1024 ≤ (t.val - 1) % 64).inf g
      = (Finset.univ.filter fun i : Fin 8192 => i.val / 1024 * 8 + q.val / 1024 < t.val % 64).inf g := by
  refine congrArg (fun s => Finset.inf s g) ?_
  ext i
  simp only [Finset.mem_filter, Finset.mem_univ, true_and]
  omega

/-- Inside a batch the point before is in the same batch. -/
private theorem bOf_pred (t : Fin cfg0.N) (h1 : ¬t.val % 64 = 0) : bOf ⟨t.val - 1, predLt t⟩ = bOf t :=
  Fin.ext (by show (t.val - 1) / 64 = t.val / 64; omega)

/-! ## The point's slice of the column minima -/

/-- A tile's entry is the clamped squared distance of the two arrays' points it stands for. -/
private theorem tile_eq (c : Dev nD) (t : Fin cfg0.N) (p r : Fin 1024) :
    tile (blkA m c t) (blkB m c t) p r
      = Chamfer.dsq (argA m c) (argB m c) (bOf t) (rowOf t p) (colOf t r) := by
  unfold tile Chamfer.dsq Chamfer.nrm Chamfer.dotp
  simp only [blkA_apply, blkB_apply]

/-- A column of the point's own reference tile, by its position in the slice. -/
private theorem hx_slice (t : Fin cfg0.N) (q : Fin 8192) (hs : q.val / 1024 = t.val % 8)
    (hlt : q.val % 1024 < 1024) (a : Fin 3) :
    ((ix3 (0 : Fin 1) (0 : Fin 1) q : S1x1x8192.Idx) a).val
      = k0_off1 (grid0.coords t) a
        + ((ix3 (0 : Fin 1) (0 : Fin 1) (⟨q.val % 1024, hlt⟩ : Fin 1024) : S1x1x1024.Idx) a).val := by
  rw [off1_eq t]
  match a with
  | ⟨0, _⟩ => rfl
  | ⟨1, _⟩ => rfl
  | ⟨2, _⟩ => show q.val = t.val % 8 * 1024 + q.val % 1024; omega

/-- A column of another reference tile is off the slice along the last axis. -/
private theorem ha_slice (t : Fin cfg0.N) (q : Fin 8192) (hs : ¬q.val / 1024 = t.val % 8) :
    ((ix3 (0 : Fin 1) (0 : Fin 1) q : S1x1x8192.Idx) 2).val < k0_off1 (grid0.coords t) 2
      ∨ k0_off1 (grid0.coords t) 2 + S1x1x1024.size 2 ≤ ((ix3 (0 : Fin 1) (0 : Fin 1) q : S1x1x8192.Idx) 2).val := by
  rw [off1_eq t]
  show q.val < t.val % 8 * 1024 ∨ t.val % 8 * 1024 + 1024 ≤ q.val
  omega

/-- What the point stores at a column of its slice: the carried value joined with the column's minimum over the
    rows of the point's query tile. -/
private theorem slice_step (c : Dev nD) (t : Fin cfg0.N) (q : Fin 8192) (hs : q.val / 1024 = t.val % 8)
    (hlt : q.val % 1024 < 1024) (X : Vec Ideal S1x1x8192 .f32) :
    k0_pay2 (F := Ideal) (k0_pay3 (F := Ideal) (blkA m c t) (blkB m c t)) (slice3 (grid0.coords t) X)
        (ix3 0 0 ⟨q.val % 1024, hlt⟩)
      = min (X (ix3 0 0 q))
          (Finset.univ.inf fun p : Fin 1024 => Chamfer.dsq (argA m c) (argB m c) (bOf t) (rowOf t p) q) := by
  have hq : colOf t ⟨q.val % 1024, hlt⟩ = q :=
    Fin.ext (by show t.val % 8 * 1024 + q.val % 1024 = q.val; omega)
  have hX : slice3 (grid0.coords t) X (ix3 0 0 ⟨q.val % 1024, hlt⟩) = X (ix3 0 0 q) := by
    show X _ = X _
    refine congrArg X (funext fun a => Fin.ext ?_)
    rw [Rect.emb_apply, Rect.stride_unit, Nat.one_mul]
    exact (hx_slice t q hs hlt a).symm
  rw [pay2_apply, hX]
  refine congrArg (fun z => min (X (ix3 0 0 q)) z) ?_
  refine Finset.inf_congr rfl fun p _ => ?_
  rw [tile_eq m c t p ⟨q.val % 1024, hlt⟩, hq]

/-- After point `t` column `q` of the batch's minima is the minimum over the rows of the tiles visited so far. -/
theorem inv3 (c : Dev nD) (t : Fin cfg0.N) (q : Fin 8192) :
    (outsAt m c t.val t.isLt).2 (ix3 0 0 q)
      = (Finset.univ.filter fun i : Fin 8192 => i.val / 1024 * 8 + q.val / 1024 ≤ t.val % 64).inf
          fun i => Chamfer.dsq (argA m c) (argB m c) (bOf t) i q := by
  -- induction on the position, for all columns at once
  have main : ∀ (n : ℕ) (t : Fin cfg0.N), t.val = n → ∀ q : Fin 8192,
      (outsAt m c t.val t.isLt).2 (ix3 0 0 q)
        = (Finset.univ.filter fun i : Fin 8192 => i.val / 1024 * 8 + q.val / 1024 ≤ t.val % 64).inf
            fun i => Chamfer.dsq (argA m c) (argB m c) (bOf t) i q := by
    intro n
    induction n using Nat.strong_induction_on with
    | _ n ih =>
      intro t ht q
      have hlt : q.val % 1024 < 1024 := Nat.mod_lt _ (by norm_num)
      by_cases h1 : t.val % 64 = 0
      · -- a batch's first point: from plus infinity
        have h0 : t.val % 8 = 0 := by omega
        rw [outsAt_A m c t h0 h1]
        dsimp only
        by_cases hs : q.val / 1024 = t.val % 8
        · refine (out_A_3_mem (F := Ideal) c (grid0.coords t) (ms0 t) (hs0 t) (ms1 t) (hs1 t) (ms2 t) (hs2 t)
            (ms3 t) (hs3 t) (blkA m c t) (blkB m c t) _ _ (ix3 0 0 q) (ix3 0 0 ⟨q.val % 1024, hlt⟩)
            (hx_slice t q hs hlt)).trans ?_
          rw [slice_step m c t q hs hlt, pay1_apply, ← inf_in _ t q hs, inf_base0 _ t q h1]
        · refine (out_A_3_not_mem (F := Ideal) c (grid0.coords t) (ms0 t) (hs0 t) (ms1 t) (hs1 t) (ms2 t) (hs2 t)
            (ms3 t) (hs3 t) (blkA m c t) (blkB m c t) _ _ (ix3 0 0 q) 2 (ha_slice t q hs)).trans ?_
          rw [pay1_apply, ← inf_out _ t q hs, inf_base0 _ t q h1]
      · -- a later point of the batch: from what the point before left
        have hprev : ∀ q : Fin 8192, (outsAt m c (t.val - 1) (predLt t)).2 (ix3 0 0 q)
            = (Finset.univ.filter fun i : Fin 8192 => i.val / 1024 * 8 + q.val / 1024 < t.val % 64).inf
                fun i => Chamfer.dsq (argA m c) (argB m c) (bOf t) i q := by
          intro q
          have h := ih (t.val - 1) (by omega) ⟨t.val - 1, predLt t⟩ rfl q
          rw [bOf_pred t h1] at h
          exact h.trans (inf_pred _ t q h1)
        by_cases h0 : t.val % 8 = 0
        · rw [outsAt_C m c t h0 h1]
          dsimp only
          by_cases hs : q.val / 1024 = t.val % 8
          · refine (out_C_3_mem (F := Ideal) c (grid0.coords t) (ms0 t) (hs0 t) (ms1 t) (hs1 t) (ms2 t) (hs2 t)
              (ms3 t) (hs3 t) (blkA m c t) (blkB m c t) _ _ (outsAt m c (t.val - 1) (predLt t)).2
              (ix3 0 0 q) (ix3 0 0 ⟨q.val % 1024, hlt⟩) (hx_slice t q hs hlt)).trans ?_
            rw [slice_step m c t q hs hlt, hprev q, inf_in _ t q hs]
          · refine (out_C_3_not_mem (F := Ideal) c (grid0.coords t) (ms0 t) (hs0 t) (ms1 t) (hs1 t) (ms2 t) (hs2 t)
              (ms3 t) (hs3 t) (blkA m c t) (blkB m c t) _ _ (outsAt m c (t.val - 1) (predLt t)).2
              (ix3 0 0 q) 2 (ha_slice t q hs)).trans ?_
            rw [hprev q, inf_out _ t q hs]
        · rw [outsAt_B m c t h0 h1]
          dsimp only
          by_cases hs : q.val / 1024 = t.val % 8
          · refine (out_B_3_mem (F := Ideal) c (grid0.coords t) (ms0 t) (hs0 t) (ms1 t) (hs1 t) (ms2 t) (hs2 t)
              (ms3 t) (hs3 t) (blkA m c t) (blkB m c t) _ _ (outsAt m c (t.val - 1) (predLt t)).1
              (outsAt m c (t.val - 1) (predLt t)).2
              (ix3 0 0 q) (ix3 0 0 ⟨q.val % 1024, hlt⟩) (hx_slice t q hs hlt)).trans ?_
            rw [slice_step m c t q hs hlt, hprev q, inf_in _ t q hs]
          · refine (out_B_3_not_mem (F := Ideal) c (grid0.coords t) (ms0 t) (hs0 t) (ms1 t) (hs1 t) (ms2 t) (hs2 t)
              (ms3 t) (hs3 t) (blkA m c t) (blkB m c t) _ _ (outsAt m c (t.val - 1) (predLt t)).1
              (outsAt m c (t.val - 1) (predLt t)).2
              (ix3 0 0 q) 2 (ha_slice t q hs)).trans ?_
            rw [hprev q, inf_out _ t q hs]
  exact main t.val t rfl q

end Cert.KernelIdeal.Hand

end
-- ==== Proof.KI.Inv.lean ====
/- The two invariants of the running minima (the query tile's and the batch's), gathered. -/
import proofs.«125048_j82746839925382_1_alg».proof.Proof.KI.Inv2
import proofs.«125048_j82746839925382_1_alg».proof.Proof.KI.Inv3
-- ==== Proof.KI.Final.lean ====
/- The two output arrays after the run. The query tile's minima are written back after the last reference tile of
   a sweep, when they are the minima over all 8192 columns; the batch's column minima after the batch's last
   point, when they are the minima over all 8192 rows. The written blocks tile the arrays, so the arrays end as
   the two nearest-neighbour maps. -/
import proofs.«125048_j82746839925382_1_alg».proof.Proof.KI.Inv

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The first result: the nearest-neighbour map of the first array's points -/

/-- The block indices of the first result's window at point `t`: batch `t / 64`, column block `t / 8 % 8`. -/
private theorem idx2 : ∀ t : Fin cfg0.N, win0_2.index t (0 : Fin 3) = t.val / 64
    ∧ win0_2.index t (1 : Fin 3) = 0 ∧ win0_2.index t (2 : Fin 3) = t.val / 8 % 8 :=
  (by decide +kernel : ∀ t : Fin grid0.N, _)

/-- The first result as an array. -/
private def G2 (c : Dev nD) : S4x1x8192.Idx → Elt Ideal .f32 := fun j => Chamfer.near1 (argA m c) (argB m c) (j 0) (j 2)

/-- After the last reference tile of a sweep (`t % 8 = 7`) the query tile's minima are over all 8192 columns. -/
private theorem out2_apply (c : Dev nD) (t : Fin cfg0.N) (h7 : t.val % 8 = 7) (y : S1x1x1024.Idx) (p : Fin 1024) (hp : y 2 = p) :
    (outsAt m c t.val t.isLt).1 y = Chamfer.near1 (argA m c) (argB m c) (bOf t) (rowOf t p) := by
  have hy : y = (ix3 0 0 p : S1x1x1024.Idx) := by
    funext a
    match a with
    | ⟨0, _⟩ => apply Fin.ext; show (y 0).val = 0; have : (y 0).val < 1 := (y 0).isLt; omega
    | ⟨1, _⟩ => apply Fin.ext; show (y 1).val = 0; have : (y 1).val < 1 := (y 1).isLt; omega
    | ⟨2, _⟩ => exact hp
  refine (congrArg (outsAt m c t.val t.isLt).1 hy).trans ?_
  rw [inv2]
  rw [Finset.filter_true_of_mem (fun j _ => by have := j.isLt; omega)]
  rfl

/-- An entry of point `t`'s block of an array of the first result's shape is the array's entry in batch `t / 64` at
    column `t / 8 % 8 * 1024 +` the position in the block. -/
private theorem read_blk2 (G : S4x1x8192.Idx → Elt Ideal .f32) (t : Fin cfg0.N) (y : S1x1x1024.Idx) (i : S4x1x8192.Idx)
    (h0 : (i 0).val = t.val / 64) (h1 : (i 1).val = 0) (h2 : (i 2).val = t.val / 8 % 8 * 1024 + (y 2).val) :
    ((cfg0.win 2).blk t).view.read (Elt Ideal) G y = G i := by
  obtain ⟨e0, e1, e2⟩ := idx2 t
  show G (((cfg0.win 2).blk t).view.emb y) = G i
  congr 1
  funext a; apply Fin.ext
  match a with
  | ⟨0, _⟩ => show win0_2.index t (0 : Fin 3) * 1 + 1 * (y 0).val = (i 0).val; have : (y 0).val < 1 := (y 0).isLt; omega
  | ⟨1, _⟩ => show win0_2.index t (1 : Fin 3) * 1 + 1 * (y 1).val = (i 1).val; have : (y 1).val < 1 := (y 1).isLt; omega
  | ⟨2, _⟩ => show win0_2.index t (2 : Fin 3) * 1024 + 1 * (y 2).val = (i 2).val; omega

/-- What a sweep's last point writes back is its block of the nearest-neighbour map. -/
private theorem flushed2_eq (c : Dev nD) (t : Fin cfg0.N) (hf : (cfg0.win 2).flush t = true) :
    (dats m 0 c).flushed 2 t = ((cfg0.win 2).blk t).view.read (Elt Ideal) (G2 m c) := by
  have h7 : t.val % 8 = 7 := (flush0_2 t).mp hf
  show (cfg0.win 2).cut (grid0.coords t) ((dats m 0 c).after 2 t) = _
  rw [after_2]
  funext y
  refine (out2_apply m c t h7 _ _ rfl).trans ?_
  refine Eq.trans ?_ (read_blk2 (G2 m c) t _ (ix3 (bOf t) 0 (rowOf t (y 2))) rfl rfl rfl).symm
  rfl

/-- An index of the array is in point `t`'s block iff each coordinate is in the block's range on its axis. -/
private theorem mem_blk2 (t : Fin cfg0.N) (i : S4x1x8192.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0_0).slice (win0_2.rect t)).set ↔ _
  rw [View.set_slice_whole, Rect.mem_set_unit]
  exact Iff.rfl

/-- Entry `(b, 0, r)` is in the block written back at the last point of sweep `r / 1024` of batch `b`. -/
private theorem cover2 (i : S4x1x8192.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = (i 0).val * 64 + (i 2).val / 1024 * 8 + 7 :=
    ⟨⟨(i 0).val * 64 + (i 2).val / 1024 * 8 + 7, by rw [N256]; omega⟩, rfl⟩
  refine ⟨t, (flush0_2 t).mpr (by omega), ?_⟩
  rw [mem_blk2]
  obtain ⟨e0, e1, e2⟩ := idx2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 1024 ≤ (i 2).val ∧ (i 2).val < win0_2.index t (2 : Fin 3) * 1024 + 1024; omega

theorem arr2_final (c : Dev nD) :
    (dats m 0 c).arrAt 2 cfg0.N = fun j : S4x1x8192.Idx => Chamfer.near1 (argA m c) (argB m c) (j 0) (j 2) :=
  (dats m 0 c).arrAt_eq_of_cover 2 (G2 m c) (flushed2_eq m c) cover2

/-! ## The second result: the nearest-neighbour map of the second array's points -/

/-- The block indices of the second result's window at point `t`: batch `t / 64`, the batch's whole row. -/
private theorem idx3 : ∀ t : Fin cfg0.N, win0_3.index t (0 : Fin 3) = t.val / 64
    ∧ win0_3.index t (1 : Fin 3) = 0 ∧ win0_3.index t (2 : Fin 3) = 0 :=
  (by decide +kernel : ∀ t : Fin grid0.N, _)

/-- The second result as an array. -/
private def G3 (c : Dev nD) : S4x1x8192.Idx → Elt Ideal .f32 := fun j => Chamfer.near2 (argA m c) (argB m c) (j 0) (j 2)

/-- After a batch's last point (`t % 64 = 63`) the column minima are over all 8192 rows. -/
private theorem out3_apply (c : Dev nD) (t : Fin cfg0.N) (h63 : t.val % 64 = 63) (y : S1x1x8192.Idx) (q : Fin 8192) (hq : y 2 = q) :
    (outsAt m c t.val t.isLt).2 y = Chamfer.near2 (argA m c) (argB m c) (bOf t) q := by
  have hy : y = (ix3 0 0 q : S1x1x8192.Idx) := by
    funext a
    match a with
    | ⟨0, _⟩ => apply Fin.ext; show (y 0).val = 0; have : (y 0).val < 1 := (y 0).isLt; omega
    | ⟨1, _⟩ => apply Fin.ext; show (y 1).val = 0; have : (y 1).val < 1 := (y 1).isLt; omega
    | ⟨2, _⟩ => exact hq
  refine (congrArg (outsAt m c t.val t.isLt).2 hy).trans ?_
  rw [inv3]
  rw [Finset.filter_true_of_mem (fun i _ => by have := i.isLt; have := q.isLt; omega)]
  rfl

/-- An entry of point `t`'s block of an array of the second result's shape is the array's entry in batch `t / 64` at
    the same column. -/
private theorem read_blk3 (G : S4x1x8192.Idx → Elt Ideal .f32) (t : Fin cfg0.N) (y : S1x1x8192.Idx) (i : S4x1x8192.Idx)
    (h0 : (i 0).val = t.val / 64) (h1 : (i 1).val = 0) (h2 : (i 2).val = (y 2).val) :
    ((cfg0.win 3).blk t).view.read (Elt Ideal) G y = G i := by
  obtain ⟨e0, e1, e2⟩ := idx3 t
  show G (((cfg0.win 3).blk t).view.emb y) = G i
  congr 1
  funext a; apply Fin.ext
  match a with
  | ⟨0, _⟩ => show win0_3.index t (0 : Fin 3) * 1 + 1 * (y 0).val = (i 0).val; have : (y 0).val < 1 := (y 0).isLt; omega
  | ⟨1, _⟩ => show win0_3.index t (1 : Fin 3) * 1 + 1 * (y 1).val = (i 1).val; have : (y 1).val < 1 := (y 1).isLt; omega
  | ⟨2, _⟩ => show win0_3.index t (2 : Fin 3) * 8192 + 1 * (y 2).val = (i 2).val; omega

/-- What a batch's last point writes back is its block of the nearest-neighbour map. -/
private theorem flushed3_eq (c : Dev nD) (t : Fin cfg0.N) (hf : (cfg0.win 3).flush t = true) :
    (dats m 0 c).flushed 3 t = ((cfg0.win 3).blk t).view.read (Elt Ideal) (G3 m c) := by
  have h63 : t.val % 64 = 63 := (flush0_3 t).mp hf
  show (cfg0.win 3).cut (grid0.coords t) ((dats m 0 c).after 3 t) = _
  rw [after_3]
  funext y
  refine (out3_apply m c t h63 _ _ rfl).trans ?_
  refine Eq.trans ?_ (read_blk3 (G3 m c) t _ (ix3 (bOf t) 0 (y 2)) rfl rfl rfl).symm
  rfl

/-- An index of the array is in point `t`'s block iff each coordinate is in the block's range on its axis. -/
private theorem mem_blk3 (t : Fin cfg0.N) (i : S4x1x8192.Idx) :
    i ∈ ((cfg0.win 3).blk t).view.set ↔ ∀ a : Fin 3, win0_3.index t a * S1x1x8192.size a ≤ (i a).val ∧ (i a).val < win0_3.index t a * S1x1x8192.size a + S1x1x8192.size a := by
  show i ∈ ((View.whole main_v0_1).slice (win0_3.rect t)).set ↔ _
  rw [View.set_slice_whole, Rect.mem_set_unit]
  exact Iff.rfl

/-- Entry `(b, 0, q)` is in the block written back at the last point of batch `b`. -/
private theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = (i 0).val * 64 + 63 :=
    ⟨⟨(i 0).val * 64 + 63, by rw [N256]; omega⟩, rfl⟩
  refine ⟨t, (flush0_3 t).mpr (by omega), ?_⟩
  rw [mem_blk3]
  obtain ⟨e0, e1, e2⟩ := idx3 t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 8192 ≤ (i 2).val ∧ (i 2).val < win0_3.index t (2 : Fin 3) * 8192 + 8192; omega

theorem arr3_final (c : Dev nD) :
    (dats m 0 c).arrAt 3 cfg0.N = fun j : S4x1x8192.Idx => Chamfer.near2 (argA m c) (argB m c) (j 0) (j 2) :=
  (dats m 0 c).arrAt_eq_of_cover 3 (G3 m c) (flushed3_eq m c) cover3

end Cert.KernelIdeal.Hand

end
-- ==== Proof.KI.Tail.lean ====
/- The program's result from the two output arrays. After the region the host reshapes each [4, 1, 8192] array of
   minima to [4, 8192], takes square roots, averages each over all 32768 entries, adds the two averages and
   halves the sum. The reshape only drops the unit axis, so the result is that function of the two
   nearest-neighbour maps. -/
import proofs.«125048_j82746839925382_1_alg».proof.Proof.KI.Final
import proofs.«125048_j82746839925382_1_alg».proof.Proof.KI.Frame
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-- The host lines after the region, as one function of the two arrays of minima. -/
def lossK (d1 d2 : FVec Ideal S4x8192 .f32) : FVec Ideal S_ .f32 :=
  Host.divf (addf
    (Host.divf (Host.reduceAdd (Host.sqrt d1) (constant S_ .f32 0x00000000#32) reducesTo_S4x8192_S_d0_1 h_S_) (constant S_ .f32 0x47000000#32))
    (Host.divf (Host.reduceAdd (Host.sqrt d2) (constant S_ .f32 0x00000000#32) reducesTo_S4x8192_S_d0_1 h_S_) (constant S_ .f32 0x47000000#32)))
    (constant S_ .f32 0x40000000#32)

/-- Dropping the middle unit axis: entry (b, i) of the reshaped array is entry (b, 0, i). -/
theorem reshape_apply (X : S4x1x8192.Idx → EReal) (h : S4x1x8192.ShapeCasts S4x8192) (b : Fin 4) (i : Fin 8192) :
    shapeCast S4x8192 X h (ix2 b i) = X (ix3 b (0 : Fin 1) i) :=
  shapeCast_apply X h _ _ (by
    rw [Shape.rowMajor_val_three, Shape.rowMajor_val_two]
    show (b.val * 1 + 0) * 8192 + i.val = b.val * 8192 + i.val
    omega)

/-- The reshaped first output array is the first nearest-neighbour map, -/
theorem reshaped2 (c : Dev nD) (h : S4x1x8192.ShapeCasts S4x8192) :
    shapeCast S4x8192 (Pipeline.withArrays (cfgs 0).spec c (V0 m c) (fun w => (dats m 0 c).arrAt w (cfgs 0).N) (Proc.devRef .tc main_v0_0)) h
      = Chamfer.D1 (argA m c) (argB m c) := by
  funext i
  obtain ⟨b, q, rfl⟩ : ∃ (b : Fin 4) (q : Fin 8192), i = ix2 b q := ⟨i 0, i 1, eq_ix2 i⟩
  rw [reshape_apply]
  exact (congrFun (Pipeline.withArrays_arr spec0 launch0.win.arr_inj c (V0 m c) (fun w => (dats m 0 c).arrAt w (cfgs 0).N) 2) (ix3 b 0 q)).trans
    (congrFun (arr2_final m c) (ix3 b 0 q))

/-- and the reshaped second the second. -/
theorem reshaped3 (c : Dev nD) (h : S4x1x8192.ShapeCasts S4x8192) :
    shapeCast S4x8192 (Pipeline.withArrays (cfgs 0).spec c (V0 m c) (fun w => (dats m 0 c).arrAt w (cfgs 0).N) (Proc.devRef .tc main_v0_1)) h
      = Chamfer.D2 (argA m c) (argB m c) := by
  funext i
  obtain ⟨b, q, rfl⟩ : ∃ (b : Fin 4) (q : Fin 8192), i = ix2 b q := ⟨i 0, i 1, eq_ix2 i⟩
  rw [reshape_apply]
  exact (congrFun (Pipeline.withArrays_arr spec0 launch0.win.arr_inj c (V0 m c) (fun w => (dats m 0 c).arrAt w (cfgs 0).N) 3) (ix3 b 0 q)).trans
    (congrFun (arr3_final m c) (ix3 b 0 q))

/-- The program's result after the run. -/
theorem tail_eq (c : Dev nD) :
    Pipeline.afterTail₀ cfgs (dats m) 0 (V0 m) [hostOps1] c main_v10
      = lossK (Chamfer.D1 (argA m c) (argB m c)) (Chamfer.D2 (argA m c) (argB m c)) := by
  unfold Pipeline.afterTail₀
  show StableHlo.after hostOps1 _ (Proc.devRef .tc main_v10) = _
  after_results
  refine Eq.trans (b := lossK _ _) rfl (congrArg₂ lossK ?_ ?_)
  · exact reshaped2 m c _
  · exact reshaped3 m c _

end Cert.KernelIdeal.Hand

end
-- ==== Proof.RefValue.lean ====
/- The reference's two minima are the specification's nearest-neighbour maps: its array of clamped squared
   distances is dsq index by index, and a minimum-reduction from plus infinity over one axis is the infimum over
   that axis. -/
import proofs.«125048_j82746839925382_1_alg».proof.Proof.Gen.ReferenceIdeal.Read
import proofs.«125048_j82746839925382_1_alg».proof.Proof.Spec
import Idealize.ShloMosaic.PureOps.Reduce
import Idealize.ShloMosaic.PureOps.Ideal.Laws
import Idealize.ShloMosaic.Lib.ValueIdx
import Idealize.ShloMosaic.Lib.Pipeline.Value

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-- The index the first squared norm is read at, under the two broadcasts: (b, i, k). -/
private theorem idxA (b : Fin 4) (i j : Fin 8192) (k : Fin 3) :
    idx_main_v1 (idx_main_v5 (idx_main_v7 (ix3 b i j))) k = ix3 b i k :=
  funext fun a => Fin.ext (by match a with | ⟨0, _⟩ => rfl | ⟨1, _⟩ => rfl | ⟨2, _⟩ => rfl)

/-- The index the second squared norm is read at, under the two broadcasts: (b, j, k). -/
private theorem idxB (b : Fin 4) (i j : Fin 8192) (k : Fin 3) :
    idx_main_v3 (idx_main_v6 (idx_main_v8 (ix3 b i j))) k = ix3 b j k :=
  funext fun a => Fin.ext (by match a with | ⟨0, _⟩ => rfl | ⟨1, _⟩ => rfl | ⟨2, _⟩ => rfl)

/-- The inner product's left operand is read at (b, i, k), -/
private theorem idxL (b : Fin 4) (i j : Fin 8192) (k : Fin 3) :
    lidx_main_v4 (ix3 b i j) k = ix3 b i k :=
  funext fun a => Fin.ext (by match a with | ⟨0, _⟩ => rfl | ⟨1, _⟩ => rfl | ⟨2, _⟩ => rfl)

/-- and its right operand at (b, j, k). -/
private theorem idxR (b : Fin 4) (i j : Fin 8192) (k : Fin 3) :
    ridx_main_v4 (ix3 b i j) k = ix3 b j k :=
  funext fun a => Fin.ext (by match a with | ⟨0, _⟩ => rfl | ⟨1, _⟩ => rfl | ⟨2, _⟩ => rfl)

/-- The reference's array of clamped squared distances, at (b, i, j). -/
theorem v14_apply (x0 x1 : (⟨S4x8192x3, .f32⟩ : BufTy).Contents (Elt Ideal)) (b : Fin 4) (i j : Fin 8192) :
    val_main_v14 (F := Ideal) x0 x1 (ix3 b i j) = Chamfer.dsq x0 x1 b i j := by
  rw [val_main_v14_apply, val_main_v12_apply, val_main_v9_apply, val_main_v11_apply, val_main_v7_apply,
    val_main_v8_apply, val_main_v5_apply, val_main_v6_apply, val_main_v10_apply, val_main_v13_apply,
    val_main_v1_apply, val_main_v3_apply, val_main_v4_apply, val_main_cst_1_apply, val_main_cst_2_apply,
    val_main_cst_apply, val_main_cst_0_apply]
  simp only [val_main_v0_apply, val_main_v2_apply, idxA, idxB, idxL, idxR]
  simp only [Ideal.ofBits_def, Ideal.addf_def, Ideal.subf_def, Ideal.mulf_def, Ideal.maximumf_def]
  unfold Chamfer.dsq Chamfer.nrm Chamfer.dotp
  -- the two sums start from the word of zero, which is 0
  rw [Ideal.ofBits_zero_f32, zero_add, zero_add]

/-- Over the last axis the index above (b, i) with coordinate k inserted is (b, i, k). -/
private theorem liftA (h : S4x8192x8192.Reduces [2] S4x8192) (j : S4x8192.Idx) (k : Fin 8192) :
    h.lift j k = ix3 (j 0) (j 1) k :=
  funext fun a => Fin.ext (by match a with | ⟨0, _⟩ => rfl | ⟨1, _⟩ => rfl | ⟨2, _⟩ => rfl)

/-- Over the middle axis the index above (b, j) with coordinate k inserted is (b, k, j). -/
private theorem liftB (h : S4x8192x8192.Reduces [1] S4x8192) (j : S4x8192.Idx) (k : Fin 8192) :
    h.lift j k = ix3 (j 0) k (j 1) :=
  funext fun a => Fin.ext (by match a with | ⟨0, _⟩ => rfl | ⟨1, _⟩ => rfl | ⟨2, _⟩ => rfl)

/-- Its minimum over the last axis is the first nearest-neighbour map, -/
theorem v15_eq (x0 x1 : (⟨S4x8192x3, .f32⟩ : BufTy).Contents (Elt Ideal)) :
    val_main_v15 (F := Ideal) x0 x1 = Chamfer.D1 x0 x1 := by
  funext j
  have h : S4x8192x8192.Reduces [2] S4x8192 := by decide
  unfold val_main_v15 Chamfer.D1 Chamfer.near1
  -- the reduction at j is the fold of min, from the initial word, over the last coordinate
  refine (Host.reduce_eq_fold_single FloatOps.minimumf _ _ reducesTo_S4x8192x8192_S4x8192_d2 h h_S_ j).trans ?_
  -- the initial word is plus infinity, so the fold is the infimum
  rw [val_main_cst_3_apply, Ideal.ofBits_def, Chamfer.ofBits_inf]
  refine (Chamfer.fold_min_top _ _).trans ?_
  refine Finset.inf_congr rfl fun k _ => ?_
  exact (congrArg (val_main_v14 (F := Ideal) x0 x1) (liftA h j k)).trans (v14_apply x0 x1 (j 0) (j 1) k)

/-- and its minimum over the middle axis the second. -/
theorem v16_eq (x0 x1 : (⟨S4x8192x3, .f32⟩ : BufTy).Contents (Elt Ideal)) :
    val_main_v16 (F := Ideal) x0 x1 = Chamfer.D2 x0 x1 := by
  funext j
  have h : S4x8192x8192.Reduces [1] S4x8192 := by decide
  unfold val_main_v16 Chamfer.D2 Chamfer.near2
  -- the reduction at j is the fold of min, from the initial word, over the middle coordinate
  refine (Host.reduce_eq_fold_single FloatOps.minimumf _ _ reducesTo_S4x8192x8192_S4x8192_d1 h h_S_ j).trans ?_
  -- the initial word is plus infinity, so the fold is the infimum
  rw [val_main_cst_4_apply, Ideal.ofBits_def, Chamfer.ofBits_inf]
  refine (Chamfer.fold_min_top _ _).trans ?_
  refine Finset.inf_congr rfl fun k _ => ?_
  exact (congrArg (val_main_v14 (F := Ideal) x0 x1) (liftB h j k)).trans (v14_apply x0 x1 (j 0) k (j 1))

end Cert.ReferenceIdeal.RefValue

end
-- ==== Proof.RefLoss.lean ====
/- The reference's result from its two arrays of minima: square roots, the mean of each over all 32768 entries,
   the sum of the two means, halved. -/
import proofs.«125048_j82746839925382_1_alg».proof.Proof.RefValue

set_option maxRecDepth 16384

noncomputable section

namespace Cert.ReferenceIdeal.RefValue

open Idealize.ShloMosaic Idealize.ShloMosaic.ValueIdx
open Cert.ReferenceIdeal Cert.ReferenceIdeal.Gen Cert.ReferenceIdeal.Read

/-- The reference's last lines, as one function of the two arrays of minima. -/
def lossR (d1 d2 : FVec Ideal S4x8192 .f32) : FVec Ideal S_ .f32 :=
  Host.divf (addf
    (Host.divf (Host.reduceAdd (Host.sqrt d1) (constant S_ .f32 0x00000000#32) reducesTo_S4x8192_S_d0_1 h_S_) (constant S_ .f32 0x47000000#32))
    (Host.divf (Host.reduceAdd (Host.sqrt d2) (constant S_ .f32 0x00000000#32) reducesTo_S4x8192_S_d0_1 h_S_) (constant S_ .f32 0x47000000#32)))
    (constant S_ .f32 0x40000000#32)

/-- The reference's result is that function of the two nearest-neighbour maps. -/
theorem result_eq (x0 x1 : (⟨S4x8192x3, .f32⟩ : BufTy).Contents (Elt Ideal)) :
    val_main_v24 (F := Ideal) x0 x1 = lossR (Chamfer.D1 x0 x1) (Chamfer.D2 x0 x1) := by
  rw [← v15_eq, ← v16_eq]
  rfl

end Cert.ReferenceIdeal.RefValue

end
-- ==== Proof.lean ====
/- The certificate of the chamfer-distance kernel against its reference.

   Both programs compute, for two arrays of 4 x 8192 points in space, the clamped squared distance
   max(|a|^2 + |b|^2 - 2 <a, b>, 0) of every pair of points of a batch, its minimum along either axis, and from the
   two arrays of minima the mean of their square roots, summed and halved. The reference does it on whole
   arrays. The kernel walks a grid of 4 x 8 x 8 tiles of 1024 x 1024 pairs, keeping the running row minima of a
   query tile across a sweep of reference tiles and the running column minima of a batch across the whole batch,
   each started from plus infinity; since a minimum may be taken in any order and grouping, after the last tile the
   running minima are the minima over all 8192 points, and the lines after the kernel are the reference's last
   lines. On the extended reals every operation is exact, so the two results are equal; no finiteness is needed.

   The frames: the kernel's pipeline is run point by point (the body in its three cases: first point of a batch,
   first point of a later sweep, any other point), the same text at both instances; the reference is its
   generated run. The ideal pass rewrote nothing, so the idealized kernel is the kernel's own text. -/
import proofs.«125048_j82746839925382_1_alg».proof.Defs
import proofs.«125048_j82746839925382_1_alg».proof.Proof.Gen.Kernel
import proofs.«125048_j82746839925382_1_alg».proof.Proof.Gen.KernelIdeal
import proofs.«125048_j82746839925382_1_alg».proof.Proof.Gen.ReferenceIdeal
import proofs.«125048_j82746839925382_1_alg».proof.Proof.Gen.ReferenceIdeal.Run
import proofs.«125048_j82746839925382_1_alg».proof.Proof.Gen.ReferenceIdeal.Read
import proofs.«125048_j82746839925382_1_alg».proof.Proof.Gen.Pre_finite_inputs
import proofs.«125048_j82746839925382_1_alg».proof.Proof.KB.Frame
import proofs.«125048_j82746839925382_1_alg».proof.Proof.KI.Frame
import proofs.«125048_j82746839925382_1_alg».proof.Proof.KI.Tail
import proofs.«125048_j82746839925382_1_alg».proof.Proof.RefLoss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's last lines and the reference's are one function of the two arrays of minima. -/
theorem loss_eq : @Cert.KernelIdeal.Hand.lossK = @Cert.ReferenceIdeal.RefValue.lossR := rfl

/-- The two idealized programs, run from memories that agree on the arguments, end with equal results: the
    kernel's is its last lines applied to the two nearest-neighbour maps of the arguments, and so is the
    reference's. -/
theorem algebraic : Cert.algebraic_KernelIdeal_ReferenceIdeal := by
  intro m ρ m' ρ' _ hagree
  refine ⟨fun c => Cert.KernelIdeal.Hand.lossK
      (Chamfer.D1 (Cert.KernelIdeal.Hand.argA m c) (Cert.KernelIdeal.Hand.argB m c))
      (Chamfer.D2 (Cert.KernelIdeal.Hand.argA m c) (Cert.KernelIdeal.Hand.argB m c)), ?_, ?_⟩
  · refine (θ_run Cert.KernelIdeal.defs _ _).mono (fun r h c => ⟨?_, ?_, ?_⟩) (Cert.KernelIdeal.Hand.run_main (F := Ideal) m ρ)
    · exact ((h c).2 Cert.KernelIdeal.main_v10 (Pipeline.mem_restRefs_of _ rfl (by decide))).trans (Cert.KernelIdeal.Hand.tail_eq m c)
    · exact ((h c).1 0).trans (((Cert.KernelIdeal.Hand.dats m 0 c).arrAt_in 0 rfl _).trans
        ((Cert.KernelIdeal.Hand.A_eq m c 0).trans (Cert.KernelIdeal.Gen.V_main_arg0 m c)))
    · exact ((h c).1 1).trans (((Cert.KernelIdeal.Hand.dats m 0 c).arrAt_in 1 rfl _).trans
        ((Cert.KernelIdeal.Hand.A_eq m c 1).trans (Cert.KernelIdeal.Gen.V_main_arg1 m c)))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, Cert.ReferenceIdeal.RefValue.result_eq, (hagree c).1, (hagree c).2, loss_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
